-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32x32x256 : Shape := ⟨4, ![256, 32, 32, 256]⟩
abbrev S4x256 : Shape := ⟨2, ![4, 256]⟩
abbrev S256 : Shape := ⟨1, ![256]⟩
abbrev S_ : Shape := ⟨0, ![]⟩

class Facts : Prop where
  bcast_S_S256x32x32x256 : S_.BroadcastsInDim S256x32x32x256 (![] : Fin 0 → Fin S256x32x32x256.rank)
  reducesTo_S256x32x32x256_S_d0_1_2_3 : S256x32x32x256.ReducesTo [0, 1, 2, 3] S_
  h_S_ : 0 < S_.numel
  bcast_S_S4x256 : S_.BroadcastsInDim S4x256 (![] : Fin 0 → Fin S4x256.rank)
  reducesTo_S4x256_S_d0_1 : S4x256.ReducesTo [0, 1] S_
  reducesTo_S256_S_d0 : S256.ReducesTo [0] S_

variable [Facts]

def comparator_i32_d0 : BitVec 32 → BitVec 32 → BitVec 1 :=
  fun l r =>
    let v19 := IntOp.cmpi .slt l r
    v19
def fn_part1 {F : FTy → Type} [FloatOps F] (main_v13 : IVec S_ 1) (main_v16 : IVec S256 1) (main_c_4 : IVec S_ 1) : IVec S_ 1 :=
  let main_v17 : IVec S_ 1 := (fun x v => Host.reduce IntOp.andi x v reducesTo_S256_S_d0 h_S_) main_v16 main_c_4
  let main_v18 : IVec S_ 1 := andi main_v13 main_v17
  main_v18

def fn {F : FTy → Type} [FloatOps F] (main_arg0 : FVec F S256x32x32x256 .f32) (main_arg1 : FVec F S4x256 .f32) (main_arg2 : FVec F S4x256 .f32) (main_arg3 : IVec S256 32) : IVec S_ 1 :=
  let main_v0 : FVec F S256x32x32x256 .f32 := Host.absf main_arg0
  let main_cst : FVec F S_ .f32 := constant S_ .f32 0x7F800000#32
  let main_v1 : FVec F S256x32x32x256 .f32 := broadcastInDim S256x32x32x256 ![] bcast_S_S256x32x32x256 main_cst
  let main_v2 : IVec S256x32x32x256 1 := cmpf .olt main_v0 main_v1
  let main_c : IVec S_ 1 := constantI S_ 1 1#1
  let main_v3 : IVec S_ 1 := (fun x v => Host.reduce IntOp.andi x v reducesTo_S256x32x32x256_S_d0_1_2_3 h_S_) main_v2 main_c
  let main_v4 : FVec F S4x256 .f32 := Host.absf main_arg1
  let main_cst_0 : FVec F S_ .f32 := constant S_ .f32 0x7F800000#32
  let main_v5 : FVec F S4x256 .f32 := broadcastInDim S4x256 ![] bcast_S_S4x256 main_cst_0
  let main_v6 : IVec S4x256 1 := cmpf .olt main_v4 main_v5
  let main_c_1 : IVec S_ 1 := constantI S_ 1 1#1
  let main_v7 : IVec S_ 1 := (fun x v => Host.reduce IntOp.andi x v reducesTo_S4x256_S_d0_1 h_S_) main_v6 main_c_1
  let main_v8 : IVec S_ 1 := andi main_v3 main_v7
  let main_v9 : FVec F S4x256 .f32 := Host.absf main_arg2
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : IVec S256 32 := (fun x => Host.sort S256 0 comparator_i32_d0 x) main_arg3
  let main_v15 : IVec S256 32 := iotaInDim S256 32 0
  let main_v16 : IVec S256 1 := cmpi .eq main_v14 main_v15
  let main_c_4 : IVec S_ 1 := constantI S_ 1 1#1
  fn_part1 (F := F) main_v13 main_v16 main_c_4
-- ==== Kernel.lean ====
abbrev S256x32x32x256 : Shape := ⟨4, ![256, 32, 32, 256]⟩
abbrev S4x256 : Shape := ⟨2, ![4, 256]⟩
abbrev S256 : Shape := ⟨1, ![256]⟩
abbrev S_ : Shape := ⟨0, ![]⟩
abbrev S256x1 : Shape := ⟨2, ![256, 1]⟩
abbrev S1x4 : Shape := ⟨2, ![1, 4]⟩
abbrev S256x4 : Shape := ⟨2, ![256, 4]⟩
abbrev S256x256 : Shape := ⟨2, ![256, 256]⟩
abbrev S8x32x32x256 : Shape := ⟨4, ![8, 32, 32, 256]⟩
abbrev S8x256 : Shape := ⟨2, ![8, 256]⟩
abbrev S8x1x1x256 : Shape := ⟨4, ![8, 1, 1, 256]⟩

abbrev nBuf : Space → Nat
  | .hbm => 55
  | .vmem => 14
  | .smem => 0
  | _ => 0

abbrev bufTy : (tb : Table) → Fin (tcTables nBuf tb) → BufTy
  | .hbm, ⟨0, _⟩ => ⟨S256x32x32x256, .f32⟩
  | .hbm, ⟨1, _⟩ => ⟨S4x256, .f32⟩
  | .hbm, ⟨2, _⟩ => ⟨S4x256, .f32⟩
  | .hbm, ⟨3, _⟩ => ⟨S256, .i32⟩
  | .hbm, ⟨4, _⟩ => ⟨S256, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x4, .i32⟩
  | .hbm, ⟨27, _⟩ => ⟨S256x4, .i32⟩
  | .hbm, ⟨28, _⟩ => ⟨S256x4, .i32⟩
  | .hbm, ⟨29, _⟩ => ⟨S256x4, .i1⟩
  | .hbm, ⟨30, _⟩ => ⟨S256x4, .f32⟩
  | .hbm, ⟨31, _⟩ => ⟨S256x256, .f32⟩
  | .hbm, ⟨32, _⟩ => ⟨S256x256, .f32⟩
  | .hbm, ⟨33, _⟩ => ⟨S4x256, .f32⟩
  | .hbm, ⟨34, _⟩ => ⟨S4x256, .f32⟩
  | .hbm, ⟨35, _⟩ => ⟨S4x256, .f32⟩
  | .hbm, ⟨36, _⟩ => ⟨S4x256, .f32⟩
  | .hbm, ⟨37, _⟩ => ⟨S_, .f32⟩
  | .hbm, ⟨38, _⟩ => ⟨S4x256, .f32⟩
  | .hbm, ⟨39, _⟩ => ⟨S4x256, .f32⟩
  | .hbm, ⟨40, _⟩ => ⟨S_, .f32⟩
  | .hbm, ⟨41, _⟩ => ⟨S4x256, .f32⟩
  | .hbm, ⟨42, _⟩ => ⟨S4x256, .f32⟩
  | .hbm, ⟨43, _⟩ => ⟨S4x256, .f32⟩
  | .hbm, ⟨44, _⟩ => ⟨S4x256, .f32⟩
  | .hbm, ⟨45, _⟩ => ⟨S_, .f32⟩
  | .hbm, ⟨46, _⟩ => ⟨S4x256, .f32⟩
  | .hbm, ⟨47, _⟩ => ⟨S4x256, .f32⟩
  | .hbm, ⟨48, _⟩ => ⟨S4x256, .f32⟩
  | .hbm, ⟨49, _⟩ => ⟨S4x256, .f32⟩
  | .hbm, ⟨50, _⟩ => ⟨S4x256, .f32⟩
  | .hbm, ⟨51, _⟩ => ⟨S4x256, .f32⟩
  | .hbm, ⟨52, _⟩ => ⟨S256x256, .f32⟩
  | .hbm, ⟨53, _⟩ => ⟨S256x256, .f32⟩
  | .hbm, ⟨54, _⟩ => ⟨S256x32x32x256, .f32⟩
  | .local _ .vmem, ⟨0, _⟩ => ⟨S8x32x32x256, .f32⟩
  | .local _ .vmem, ⟨1, _⟩ => ⟨S8x32x32x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x32x32x256, .f32⟩
  | .local _ .vmem, ⟨7, _⟩ => ⟨S8x32x32x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256, .f32⟩
  | .local _ .vmem, ⟨12, _⟩ => ⟨S8x32x32x256, .f32⟩
  | .local _ .vmem, ⟨13, _⟩ => ⟨S8x32x32x256, .f32⟩
  | _, _ => ⟨S256x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v2 : Ref sig .tc := ⟨.hbm, 30, rfl⟩
abbrev main_v3_0 : Ref sig .tc := ⟨.hbm, 31, rfl⟩
abbrev main_v3_1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_cst_0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S8x32x32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x32x32x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S256x1_S256x4_0_1 : S256x1.BroadcastsInDim S256x4 (![0, 1] : Fin 2 → Fin S256x4.rank)
  bcast_S1x4_S256x4_0_1 : S1x4.BroadcastsInDim S256x4 (![0, 1] : Fin 2 → Fin S256x4.rank)
  inb_S8x32x32x256_S8x32x32x256_0_0_0_0 : ∀ a, (![0, 0, 0, 0] : Fin 4 → Nat) a + S8x32x32x256.size a ≤ S8x32x32x256.size a
  h_S8x32x32x256 : 0 < S8x32x32x256.numel
  reduces_S8x32x32x256_S8x256 : S8x32x32x256.Reduces [1, 2] S8x256
  inb_S8x256_S8x256_0_0 : ∀ a, (![0, 0] : Fin 2 → Nat) a + S8x256.size a ≤ S8x256.size a
  h_S8x256 : 0 < S8x256.numel
  transposes_S256x4_S4x256_1_0 : S256x4.Transposes [1, 0] S4x256
  bcast_S_S4x256 : S_.BroadcastsInDim S4x256 (![] : Fin 0 → Fin S4x256.rank)
  shapeCasts_S8x256_S8x256 : S8x256.ShapeCasts S8x256
  shapeCasts_S8x256_S8x1x1x256 : S8x256.ShapeCasts S8x1x1x256
  broadcasts_S8x1x1x256_S8x32x32x256 : S8x1x1x256.Broadcasts S8x32x32x256
  dot_S4x256_S256x256_S4x256_1_0_0_1_n_n_wf : DotDims.WF S4x256 S256x256 S4x256 [1] [0] [0] [1] [] []
  dot_S256x4_S4x256_S256x256_1_0_0_1_n_n_wf : DotDims.WF S256x4 S4x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x32x256.size a ≤ S256x32x32x256.size a
  hwx0_0 : ∀ i : grid0.Coords, EltTy.bits .f32 = 32 ∨ (Rect.block (s := S256x32x32x256) S8x32x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S256x256.size a
  hwx0_1 : ∀ i : grid0.Coords, EltTy.bits .f32 = 32 ∨ (Rect.block (s := S256x256) S8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S256x256.size a
  hwx0_2 : ∀ i : grid0.Coords, EltTy.bits .f32 = 32 ∨ (Rect.block (s := S256x256) S8x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x32x32x256.size a ≤ S256x32x32x256.size a
  hwx1_0 : ∀ i : grid1.Coords, EltTy.bits .f32 = 32 ∨ (Rect.block (s := S256x32x32x256) S8x32x32x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S256x256.size a
  hwx1_1 : ∀ i : grid1.Coords, EltTy.bits .f32 = 32 ∨ (Rect.block (s := S256x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256.size a ≤ S256x256.size a
  hwx1_2 : ∀ i : grid1.Coords, EltTy.bits .f32 = 32 ∨ (Rect.block (s := S256x256) S8x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x32x32x256.size a ≤ S256x32x32x256.size a
  hwx1_3 : ∀ i : grid1.Coords, EltTy.bits .f32 = 32 ∨ (Rect.block (s := S256x32x32x256) S8x32x32x256.size (cc1_transform_3 i) (hinb1_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def dot_S4x256_S256x256_S4x256_1_0_0_1_n_n : DotDims S4x256 S256x256 S4x256 where
  lhsContracting := [1]
  rhsContracting := [0]
  lhsNonContracting := [0]
  rhsNonContracting := [1]
  lhsBatch := []
  rhsBatch := []
  wf := dot_S4x256_S256x256_S4x256_1_0_0_1_n_n_wf
def dot_S256x4_S4x256_S256x256_1_0_0_1_n_n : DotDims S256x4 S4x256 S256x256 where
  lhsContracting := [1]
  rhsContracting := [0]
  lhsNonContracting := [0]
  rhsNonContracting := [1]
  lhsBatch := []
  rhsBatch := []
  wf := dot_S256x4_S4x256_S256x256_1_0_0_1_n_n_wf

abbrev win0_0 : Pipeline.Window sig grid0 :=
  Pipeline.Window.ofSpec (Memref.whole main_arg0) S8x32x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S8x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S8x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x32x32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S8x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S8x32x32x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x32x32x256 : Shape := ⟨4, ![256, 32, 32, 256]⟩
abbrev S4x256 : Shape := ⟨2, ![4, 256]⟩
abbrev S256 : Shape := ⟨1, ![256]⟩
abbrev S_ : Shape := ⟨0, ![]⟩
abbrev S256x1 : Shape := ⟨2, ![256, 1]⟩
abbrev S4x64x32x32x256 : Shape := ⟨5, ![4, 64, 32, 32, 256]⟩
abbrev S4x1x1x1x256 : Shape := ⟨5, ![4, 1, 1, 1, 256]⟩

abbrev nBuf : Space → Nat
  | .hbm => 71
  | .vmem => 0
  | .smem => 0
  | _ => 0

abbrev bufTy : (tb : Table) → Fin (tcTables nBuf tb) → BufTy
  | .hbm, ⟨0, _⟩ => ⟨S256x32x32x256, .f32⟩
  | .hbm, ⟨1, _⟩ => ⟨S4x256, .f32⟩
  | .hbm, ⟨2, _⟩ => ⟨S4x256, .f32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S256x32x32x256, .f32⟩
  | .hbm, ⟨13, _⟩ => ⟨S4x64x32x32x256, .f32⟩
  | .hbm, ⟨14, _⟩ => ⟨S_, .f32⟩
  | .hbm, ⟨15, _⟩ => ⟨S4x256, .f32⟩
  | .hbm, ⟨16, _⟩ => ⟨S4x1x1x1x256, .f32⟩
  | .hbm, ⟨17, _⟩ => ⟨S_, .f32⟩
  | .hbm, ⟨18, _⟩ => ⟨S4x1x1x1x256, .f32⟩
  | .hbm, ⟨19, _⟩ => ⟨S4x1x1x1x256, .f32⟩
  | .hbm, ⟨20, _⟩ => ⟨S_, .i32⟩
  | .hbm, ⟨21, _⟩ => ⟨S_, .f32⟩
  | .hbm, ⟨22, _⟩ => ⟨S4x256, .f32⟩
  | .hbm, ⟨23, _⟩ => ⟨S4x1x1x1x256, .f32⟩
  | .hbm, ⟨24, _⟩ => ⟨S_, .f32⟩
  | .hbm, ⟨25, _⟩ => ⟨S4x1x1x1x256, .f32⟩
  | .hbm, ⟨26, _⟩ => ⟨S4x1x1x1x256, .f32⟩
  | .hbm, ⟨27, _⟩ => ⟨S4x64x32x32x256, .f32⟩
  | .hbm, ⟨28, _⟩ => ⟨S4x64x32x32x256, .f32⟩
  | .hbm, ⟨29, _⟩ => ⟨S4x64x32x32x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x256, .f32⟩
  | .hbm, ⟨35, _⟩ => ⟨S4x1x1x1x256, .f32⟩
  | .hbm, ⟨36, _⟩ => ⟨S4x1x1x1x256, .f32⟩
  | .hbm, ⟨37, _⟩ => ⟨S4x1x1x1x256, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S4x1x1x1x256, .f32⟩
  | .hbm, ⟨43, _⟩ => ⟨S4x1x1x1x256, .f32⟩
  | .hbm, ⟨44, _⟩ => ⟨S4x1x1x1x256, .f32⟩
  | .hbm, ⟨45, _⟩ => ⟨S4x1x1x1x256, .f32⟩
  | .hbm, ⟨46, _⟩ => ⟨S4x64x32x32x256, .f32⟩
  | .hbm, ⟨47, _⟩ => ⟨S4x64x32x32x256, .f32⟩
  | .hbm, ⟨48, _⟩ => ⟨S_, .f32⟩
  | .hbm, ⟨49, _⟩ => ⟨S4x1x1x1x256, .f32⟩
  | .hbm, ⟨50, _⟩ => ⟨S4x1x1x1x256, .f32⟩
  | .hbm, ⟨51, _⟩ => ⟨S4x1x1x1x256, .f32⟩
  | .hbm, ⟨52, _⟩ => ⟨S4x64x32x32x256, .f32⟩
  | .hbm, ⟨53, _⟩ => ⟨S4x64x32x32x256, .f32⟩
  | .hbm, ⟨54, _⟩ => ⟨S4x64x32x32x256, .f32⟩
  | .hbm, ⟨55, _⟩ => ⟨S4x64x32x32x256, .f32⟩
  | .hbm, ⟨56, _⟩ => ⟨S4x64x32x32x256, .f32⟩
  | .hbm, ⟨57, _⟩ => ⟨S4x64x32x32x256, .f32⟩
  | .hbm, ⟨58, _⟩ => ⟨S256x32x32x256, .f32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S256, .i32⟩
  | .hbm, ⟨69, _⟩ => ⟨S256x1, .i32⟩
  | .hbm, ⟨70, _⟩ => ⟨S256x32x32x256, .f32⟩
  | _, _ => ⟨S256x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_3 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call1_v0 : Ref sig .tc := ⟨.hbm, 59, rfl⟩
abbrev main_call1_v1_0 : Ref sig .tc := ⟨.hbm, 60, rfl⟩
abbrev main_v27 : Ref sig .tc := ⟨.hbm, 61, rfl⟩
abbrev main_c_4 : Ref sig .tc := ⟨.hbm, 62, rfl⟩
abbrev main_v28 : Ref sig .tc := ⟨.hbm, 63, rfl⟩
abbrev main_v29 : Ref sig .tc := ⟨.hbm, 64, rfl⟩
abbrev main_c_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  shapeCasts_S256x32x32x256_S4x64x32x32x256 : S256x32x32x256.ShapeCasts S4x64x32x32x256
  reducesTo_S4x64x32x32x256_S4x256_d1_2_3 : S4x64x32x32x256.ReducesTo [1, 2, 3] S4x256
  h_S_ : 0 < S_.numel
  bcast_S4x256_S4x1x1x1x256_0_4 : S4x256.BroadcastsInDim S4x1x1x1x256 (![0, 4] : Fin 2 → Fin S4x1x1x1x256.rank)
  bcast_S_S4x1x1x1x256 : S_.BroadcastsInDim S4x1x1x1x256 (![] : Fin 0 → Fin S4x1x1x1x256.rank)
  bcast_S4x1x1x1x256_S4x64x32x32x256_0_1_2_3_4 : S4x1x1x1x256.BroadcastsInDim S4x64x32x32x256 (![0, 1, 2, 3, 4] : Fin 5 → Fin S4x64x32x32x256.rank)
  shapeCasts_S4x64x32x32x256_S256x32x32x256 : S4x64x32x32x256.ShapeCasts S256x32x32x256
  gather_S256x32x32x256_S256x1_S256x32x32x256_123_0_n_n_0_1_13232256_wf : GatherDims.WF S256x32x32x256 S256x1 S256x32x32x256 [1, 2, 3] [0] [] [0] [] 1 ![1, 32, 32, 256]

variable [Facts₀]

def gather_S256x32x32x256_S256x1_S256x32x32x256_123_0_n_n_0_1_13232256 : GatherDims S256x32x32x256 S256x1 S256x32x32x256 where
  offsetDims := [1, 2, 3]
  collapsedSliceDims := [0]
  operandBatchingDims := []
  startIndicesBatchingDims := []
  startIndexMap := [0]
  indexVectorDim := 1
  sliceSizes := ![1, 32, 32, 256]
  wf := gather_S256x32x32x256_S256x1_S256x32x32x256_123_0_n_n_0_1_13232256_wf
def comparator_i32_i32_d0 : BitVec 32 × BitVec 32 → BitVec 32 × BitVec 32 → BitVec 1 :=
  fun l r =>
    let v2 := IntOp.cmpi .slt l.1 r.1
    v2

class Facts : Prop extends Facts₀ where

variable [Facts]
-- ==== Proof.Spec.lean ====
/-
  Batch normalisation over four groups of a shuffled batch, as two formulas on coordinates.

  The batch `x` has 256 images of 32 × 32 pixels and 256 channels. A table `ρ` lists, position by position, which image
  stands at each of the 256 positions of the shuffled batch; consecutive runs of 64 positions form the four groups.
  `σ` sends an image to the position it stands at, so `ρ (σ b) = b`.

  The first formula (`refAt`) normalises the shuffled batch group by group — the mean and the mean squared deviation
  of a group's 64 × 32 × 32 entries per channel — and reads the result back at the image's position. The second
  (`kerAt`) never moves an image: it sums each image's pixels and squared pixels per channel, pools those sums over
  the images of a group through a 0/1 membership table, forms a scale and a shift per group from the pooled first and
  second moments, and applies to each image the scale and shift of its own group.

  Over finite inputs the two agree: pooling by membership is summing over the group's positions re-indexed by `σ`,
  the mean of squares less the squared mean is the mean squared deviation, and `(x - μ)·r·γ + β = x·(γ·r) + (β - μ·(γ·r))`
  once every quantity is a real number (the variance is non-negative, so `r = 1/√(var + ε)` is real).
-/
import Idealize.ShloMosaic.PureOps.Ideal
import Idealize.ShloMosaic.Lib.ValueIdx

noncomputable section

open scoped BigOperators

namespace Cert.ShuffleNorm

open Idealize.ShloMosaic Idealize.ShloMosaic.ValueIdx

/-- The batch's shape and the per-group parameters' shape. -/
abbrev Sx : Shape := ⟨4, ![256, 32, 32, 256]⟩
abbrev Sg : Shape := ⟨2, ![4, 256]⟩

/-- The three float literals both programs spell: the entry count of a group per channel, the variance offset, zero. -/
abbrev cN : EReal := Ideal.ofBits .f32 0x47800000#32
abbrev cEps : EReal := Ideal.ofBits .f32 0x3A83126F#32
abbrev cZero : EReal := Ideal.ofBits .f32 0x00000000#32

/-- The group of a position, its slot inside the group, and the position of a slot of a group. -/
def part (i : Fin 256) : Fin 4 := ⟨i.val / 64, by have := i.isLt; omega⟩
def slot (i : Fin 256) : Fin 64 := ⟨i.val % 64, Nat.mod_lt _ (by norm_num)⟩
def pos (p : Fin 4) (s : Fin 64) : Fin 256 := ⟨p.val * 64 + s.val, by have := p.isLt; have := s.isLt; omega⟩

section
variable (σ ρ : Fin 256 → Fin 256) (x : Sx.Idx → EReal) (γ β : Sg.Idx → EReal)

/-! ## Normalising the shuffled batch -/

/-- The shuffled batch: the image standing at slot `s` of group `p`. -/
def shuf (p : Fin 4) (s : Fin 64) (h w : Fin 32) (c : Fin 256) : EReal := x (ix4 (ρ (pos p s)) h w c)

/-- A group's mean per channel. -/
def rMean (p : Fin 4) (c : Fin 256) : EReal :=
  Ideal.div (cZero + ∑ k : Fin 64 × Fin 32 × Fin 32, shuf ρ x p k.1 k.2.1 k.2.2 c) cN

/-- A group's mean squared deviation per channel. -/
def rVar (p : Fin 4) (c : Fin 256) : EReal :=
  Ideal.div (cZero + ∑ k : Fin 64 × Fin 32 × Fin 32,
    (shuf ρ x p k.1 k.2.1 k.2.2 c - rMean ρ x p c) * (shuf ρ x p k.1 k.2.1 k.2.2 c - rMean ρ x p c)) cN

/-- The normalised shuffled batch read back at image `b`'s position. -/
def refAt (b : Fin 256) (h w : Fin 32) (c : Fin 256) : EReal :=
  (shuf ρ x (part (σ b)) (slot (σ b)) h w c - rMean ρ x (part (σ b)) c) * Ideal.rsqrt (rVar ρ x (part (σ b)) c + cEps)
      * γ (ix2 (part (σ b)) c) + β (ix2 (part (σ b)) c)

/-! ## Pooling per-image moments through the membership table -/

/-- An image's pixel sum and squared-pixel sum per channel. -/
def kSum (b : Fin 256) (c : Fin 256) : EReal := ∑ k : Fin 32 × Fin 32, x (ix4 b k.1 k.2 c)
def kSumSq (b : Fin 256) (c : Fin 256) : EReal := ∑ k : Fin 32 × Fin 32, x (ix4 b k.1 k.2 c) * x (ix4 b k.1 k.2 c)

/-- The membership table: `1` where image `b` stands in group `p`. -/
def member (b : Fin 256) (p : Fin 4) : EReal := if part (σ b) = p then 1 else 0

/-- A group's first and second moments pooled over its images, its scale and its shift. -/
def kMean (p : Fin 4) (c : Fin 256) : EReal := Ideal.div (∑ b : Fin 256, member σ b p * kSum x b c) cN
def kVar (p : Fin 4) (c : Fin 256) : EReal :=
  Ideal.div (∑ b : Fin 256, member σ b p * kSumSq x b c) cN - kMean σ x p c * kMean σ x p c
def kScale (p : Fin 4) (c : Fin 256) : EReal := γ (ix2 p c) * Ideal.rsqrt (kVar σ x p c + cEps)
def kShift (p : Fin 4) (c : Fin 256) : EReal := β (ix2 p c) - kMean σ x p c * kScale σ x γ p c

/-- Each image scaled and shifted by its own group's pair, selected through the membership table. -/
def kerAt (b : Fin 256) (h w : Fin 32) (c : Fin 256) : EReal :=
  x (ix4 b h w c) * (∑ p : Fin 4, member σ b p * kScale σ x γ p c) + (∑ p : Fin 4, member σ b p * kShift σ x γ β p c)

end

end Cert.ShuffleNorm

end
-- ==== Proof.SpecLaws.lean ====
/-
  The values of the three float literals, and the agreement of the two formulas of the specification on finite
  inputs.
-/
import proofs.«421362_j51101520888529_1_alg».proof.Proof.Spec

noncomputable section

open scoped BigOperators

namespace Cert.ShuffleNorm

open Idealize.ShloMosaic Idealize.ShloMosaic.ValueIdx

/-! ## The literals' values -/

theorem cN_eq : cN = ((65536 : ℝ) : EReal) := by
  simp [cN, Ideal.ofBits, Ideal.ieee, -EReal.coe_mul]; norm_num

theorem cZero_eq : cZero = 0 := by
  simp [cZero, Ideal.ofBits, Ideal.ieee]

/-- The variance offset is the real `8589935 · 2⁻³³`, a little above one thousandth. -/
private theorem cEps_eq : cEps = ((8589935 * (2 : ℝ) ^ (-33 : ℤ) : ℝ) : EReal) := by
  simp [cEps, Ideal.ofBits, Ideal.ieee, -EReal.coe_mul]

theorem cEps_pos : ∃ e : ℝ, 0 < e ∧ cEps = (e : EReal) :=
  ⟨_, by positivity, cEps_eq⟩

/-! ## Positions, groups and slots -/

private theorem pos_part_slot (i : Fin 256) : pos (part i) (slot i) = i := by
  apply Fin.ext
  simp only [pos, part, slot]
  omega

private theorem part_pos (p : Fin 4) (s : Fin 64) : part (pos p s) = p := by
  apply Fin.ext
  have := s.isLt
  simp only [pos, part]
  omega

private theorem slot_pos (p : Fin 4) (s : Fin 64) : slot (pos p s) = s := by
  apply Fin.ext
  have := s.isLt
  simp only [pos, slot]
  omega

/-- A position is a group and a slot: `(p, s) ↦ pos p s` is a bijection from `Fin 4 × Fin 64`. -/
private theorem pos_bijective : Function.Bijective (fun q : Fin 4 × Fin 64 => pos q.1 q.2) := by
  rw [Function.bijective_iff_has_inverse]
  refine ⟨fun i => (part i, slot i), fun q => ?_, fun i => pos_part_slot i⟩
  exact Prod.ext (part_pos q.1 q.2) (slot_pos q.1 q.2)

/-! ## Sums -/

/-- The coercion of a finite sum of reals is the sum of the coercions. -/
private theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Selecting through the membership table: only the image's own group survives. -/
private theorem member_select (σ : Fin 256 → Fin 256) (b : Fin 256) (g : Fin 4 → EReal) :
    ∑ p : Fin 4, member σ b p * g p = g (part (σ b)) := by
  rw [Finset.sum_eq_single (part (σ b))]
  · simp [member]
  · intro q _ hq
    simp [member, Ne.symm hq]
  · intro h; exact absurd (Finset.mem_univ _) h

/-- Pooling through the membership table is summing over the slots of the group: re-index the images by the
    positions they stand at, then split a position into its group and its slot. -/
private theorem member_pool (σ ρ : Fin 256 → Fin 256) (hσ : Function.Bijective σ) (hρσ : ∀ k, ρ (σ k) = k)
    (p : Fin 4) (f : Fin 256 → EReal) :
    ∑ b : Fin 256, member σ b p * f b = ∑ s : Fin 64, f (ρ (pos p s)) := by
  have h1 : ∑ b : Fin 256, member σ b p * f b
      = ∑ i : Fin 256, (if part i = p then (1 : EReal) else 0) * f (ρ i) := by
    refine Fintype.sum_bijective σ hσ _ _ (fun b => ?_)
    rw [member, hρσ]
  have h2 : ∑ i : Fin 256, (if part i = p then (1 : EReal) else 0) * f (ρ i)
      = ∑ q : Fin 4 × Fin 64, (if part (pos q.1 q.2) = p then (1 : EReal) else 0) * f (ρ (pos q.1 q.2)) :=
    (Fintype.sum_bijective _ pos_bijective _ _ (fun _ => rfl)).symm
  rw [h1, h2, Fintype.sum_prod_type, Finset.sum_eq_single p]
  · refine Finset.sum_congr rfl (fun s _ => ?_)
    rw [part_pos, if_pos rfl, one_mul]
  · intro q _ hq
    refine Finset.sum_eq_zero (fun s _ => ?_)
    rw [part_pos, if_neg hq, zero_mul]
  · intro h; exact absurd (Finset.mem_univ _) h

/-! ## The moments of a group as real numbers -/

/-- Mean of squares less the squared mean is the mean squared deviation, over an index type of `N` elements. -/
private theorem var_identity {K : Type*} [Fintype K] (y : K → ℝ) (N : ℝ) (hN : N ≠ 0)
    (hK : (Fintype.card K : ℝ) = N) :
    (∑ k, y k * y k) * (1 / N) - ((∑ k, y k) * (1 / N)) * ((∑ k, y k) * (1 / N))
      = (∑ k, (y k - (∑ k, y k) * (1 / N)) * (y k - (∑ k, y k) * (1 / N))) * (1 / N) := by
  set m := (∑ k, y k) * (1 / N) with hm
  have hS : ∑ k, y k = N * m := by rw [hm]; field_simp
  have h1 : ∑ k, (y k - m) * (y k - m) = ∑ k, y k * y k - 2 * m * (∑ k, y k) + N * (m * m) := by
    have h0 : ∀ k, (y k - m) * (y k - m) = y k * y k - 2 * m * y k + m * m := fun k => by ring
    simp_rw [h0]
    rw [Finset.sum_add_distrib, Finset.sum_sub_distrib, ← Finset.mul_sum, Finset.sum_const, Finset.card_univ,
      nsmul_eq_mul, hK]
  rw [h1, hS]
  field_simp
  ring

section Moments
variable (ρ : Fin 256 → Fin 256) (xr : Sx.Idx → ℝ)

/-- The entries of group `p` in channel `c`, indexed by slot and pixel; their mean; their mean squared deviation. -/
private def yR (p : Fin 4) (c : Fin 256) (k : Fin 64 × Fin 32 × Fin 32) : ℝ :=
  xr (ix4 (ρ (pos p k.1)) k.2.1 k.2.2 c)
private def mR (p : Fin 4) (c : Fin 256) : ℝ := (∑ k, yR ρ xr p c k) * (1 / 65536)
private def vR (p : Fin 4) (c : Fin 256) : ℝ :=
  (∑ k, (yR ρ xr p c k - mR ρ xr p c) * (yR ρ xr p c k - mR ρ xr p c)) * (1 / 65536)

private theorem vR_nonneg (p : Fin 4) (c : Fin 256) : 0 ≤ vR ρ xr p c :=
  mul_nonneg (Finset.sum_nonneg (fun _ _ => mul_self_nonneg _)) (by norm_num)

private theorem card_entries : (Fintype.card (Fin 64 × Fin 32 × Fin 32) : ℝ) = 65536 := by
  simp only [Fintype.card_prod, Fintype.card_fin]; norm_num

/-- The mean of the squares less the squared mean of a group's entries is their mean squared deviation. -/
private theorem moments_identity (p : Fin 4) (c : Fin 256) :
    (∑ k, yR ρ xr p c k * yR ρ xr p c k) * (1 / 65536) - mR ρ xr p c * mR ρ xr p c = vR ρ xr p c :=
  var_identity (yR ρ xr p c) 65536 (by norm_num) card_entries

end Moments

/-! ## Both formulas' moments are those real numbers -/

private theorem rsqrt_pos {r : ℝ} (h : 0 < r) : Ideal.rsqrt (r : EReal) = (((Real.sqrt r)⁻¹ : ℝ) : EReal) := by
  rw [Ideal.rsqrt_coe, if_neg (not_lt.mpr h.le), if_neg h.ne']

section Pool
variable (σ ρ : Fin 256 → Fin 256) (xr : Sx.Idx → ℝ) (hσ : Function.Bijective σ) (hρσ : ∀ k, ρ (σ k) = k)
include hσ hρσ

/-- Pooling a per-image sum over pixels through the membership table gives the sum over the group's entries. -/
private theorem pool_entries (p : Fin 4) (c : Fin 256) (g : ℝ → ℝ) :
    ∑ b : Fin 256, member σ b p * (∑ k : Fin 32 × Fin 32, ((g (xr (ix4 b k.1 k.2 c)) : ℝ) : EReal))
      = ((∑ k, g (yR ρ xr p c k) : ℝ) : EReal) := by
  have hp := member_pool σ ρ hσ hρσ p
    (fun b => ∑ k : Fin 32 × Fin 32, ((g (xr (ix4 b k.1 k.2 c)) : ℝ) : EReal))
  beta_reduce at hp
  rw [hp, coe_sum, Fintype.sum_prod_type]
  rfl

end Pool

section Coe
variable (σ ρ : Fin 256 → Fin 256) (x : Sx.Idx → EReal) (xr : Sx.Idx → ℝ) (hx : ∀ i, x i = (xr i : EReal))
include hx

private theorem rMean_coe (p : Fin 4) (c : Fin 256) : rMean ρ x p c = (mR ρ xr p c : EReal) := by
  have hy : ∀ k : Fin 64 × Fin 32 × Fin 32, shuf ρ x p k.1 k.2.1 k.2.2 c = ((yR ρ xr p c k : ℝ) : EReal) :=
    fun k => hx _
  unfold rMean mR
  rw [cN_eq, cZero_eq, zero_add, Ideal.div_coe (by norm_num), EReal.coe_mul, coe_sum]
  simp only [hy]

private theorem rVar_coe (p : Fin 4) (c : Fin 256) : rVar ρ x p c = (vR ρ xr p c : EReal) := by
  have hy : ∀ k : Fin 64 × Fin 32 × Fin 32, shuf ρ x p k.1 k.2.1 k.2.2 c = ((yR ρ xr p c k : ℝ) : EReal) :=
    fun k => hx _
  unfold rVar vR
  rw [cN_eq, cZero_eq, zero_add, Ideal.div_coe (by norm_num), EReal.coe_mul, coe_sum, rMean_coe ρ x xr hx]
  simp only [hy, EReal.coe_mul, EReal.coe_sub]

variable (hσ : Function.Bijective σ) (hρσ : ∀ k, ρ (σ k) = k)
include hσ hρσ

private theorem kMean_coe (p : Fin 4) (c : Fin 256) : kMean σ x p c = (mR ρ xr p c : EReal) := by
  have h := pool_entries σ ρ xr hσ hρσ p c (fun t => t)
  unfold kMean kSum mR
  simp only [hx]
  rw [cN_eq, Ideal.div_coe (by norm_num), h, ← EReal.coe_mul]

private theorem kVar_coe (p : Fin 4) (c : Fin 256) : kVar σ x p c = (vR ρ xr p c : EReal) := by
  have h := pool_entries σ ρ xr hσ hρσ p c (fun t => t * t)
  simp only [EReal.coe_mul] at h
  rw [← moments_identity ρ xr p c]
  unfold kVar kSumSq
  rw [kMean_coe σ ρ x xr hx hσ hρσ]
  simp only [hx]
  rw [cN_eq, Ideal.div_coe (by norm_num), h, ← EReal.coe_mul, ← EReal.coe_mul, ← EReal.coe_sub]

end Coe

/-! ## The two formulas agree on finite inputs -/

theorem kerAt_eq_refAt (σ ρ : Fin 256 → Fin 256) (x : Sx.Idx → EReal) (γ β : Sg.Idx → EReal)
    (hσ : Function.Bijective σ) (hρσ : ∀ k, ρ (σ k) = k)
    (hx : ∀ i, ∃ r : ℝ, x i = (r : EReal)) (hγ : ∀ i, ∃ r : ℝ, γ i = (r : EReal)) (hβ : ∀ i, ∃ r : ℝ, β i = (r : EReal))
    (b : Fin 256) (h w : Fin 32) (c : Fin 256) :
    kerAt σ x γ β b h w c = refAt σ ρ x γ β b h w c := by
  choose xr hxr using hx
  choose γr hγr using hγ
  choose βr hβr using hβ
  obtain ⟨e, he, hce⟩ := cEps_pos
  have hpos : 0 < vR ρ xr (part (σ b)) c + e := add_pos_of_nonneg_of_pos (vR_nonneg ρ xr _ c) he
  have hb : ρ (pos (part (σ b)) (slot (σ b))) = b := by rw [pos_part_slot, hρσ]
  unfold kerAt refAt
  rw [member_select, member_select]
  unfold kShift kScale shuf
  rw [kVar_coe σ ρ x xr hxr hσ hρσ, kMean_coe σ ρ x xr hxr hσ hρσ, rVar_coe ρ x xr hxr, rMean_coe ρ x xr hxr,
    hb, hce, ← EReal.coe_add, rsqrt_pos hpos, hxr, hγr, hβr]
  norm_cast
  ring

end Cert.ShuffleNorm

end
-- ==== Proof.Perm.lean ====
/-
  A table of 256 machine words that sorts to 0, 1, …, 255 is a permutation of them, and the stable sorting
  permutation of the table is its inverse.

  `sortPerm t k` is the position whose word the stable sort of `t` (by signed less-than) puts at position `k`;
  `entry t i` is the word at position `i` read as a number below 256. Sorting `t` reads it through `sortPerm t`, and
  sorting it together with the table 0, 1, …, 255 returns `sortPerm t` itself in the second component. If the sorted
  table is 0, 1, …, 255 then `entry t (sortPerm t k) = k`: `entry t` undoes `sortPerm t`.
-/
import Idealize.ShloMosaic.PureOps
import Idealize.ShloMosaic.Lib.SortFacts

noncomputable section

namespace Cert.ShuffleNorm

open Idealize.ShloMosaic

/-- The shape of the table. -/
abbrev S1 : Shape := ⟨1, ![256]⟩

/-- The position whose word lands at position `k` of the sorted table. -/
def sortPerm (t : IVec S1 32) : Fin 256 → Fin 256 :=
  sortedFrom (fun k k' => IntOp.cmpi .slt (t (Shape.Idx.ofFin k)) (t (Shape.Idx.ofFin k')) == 1#1)

/-- The word at position `i`, as a number below 256. -/
def entry (t : IVec S1 32) : Fin 256 → Fin 256 :=
  fun i => ⟨(t (Shape.Idx.ofFin i)).toNat % 256, Nat.mod_lt _ (by decide)⟩

theorem sortPerm_bijective (t : IVec S1 32) : Function.Bijective (sortPerm t) :=
  ⟨sortedFrom_injective _, sortedFrom_surjective _⟩

/-- Sorting the table reads it through `sortPerm`. -/
theorem sort_eq (t : IVec S1 32) (j : S1.Idx) :
    Host.sort S1 0 (fun l r : BitVec 32 => IntOp.cmpi .slt l r) t j = t (Shape.Idx.ofFin (sortPerm t (j 0))) :=
  Host.sort_rank1 _ t j

/-- On a table of one axis, the second component of a sort of two operands reads the second operand through the
    stable sorting permutation of the pairs. -/
private theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- Sorting the table together with 0, 1, …, 255 returns `sortPerm` in the second component. -/
theorem argsort_eq (t : IVec S1 32) (j : S1.Idx) :
    (Host.sort2 S1 0 (fun l r : BitVec 32 × BitVec 32 => IntOp.cmpi .slt l.1 r.1) t (iotaInDim S1 32 0)).2 j
      = BitVec.ofNat 32 (sortPerm t (j 0)).val := by
  rw [sort2_snd_rank1]
  unfold iotaInDim sortPerm
  rw [Shape.Idx.ofFin_zero]

section
variable (t : IVec S1 32)
  (hs : ∀ j, Host.sort S1 0 (fun l r : BitVec 32 => IntOp.cmpi .slt l r) t j = iotaInDim S1 32 0 j)
include hs

/-- Position `k` of the sorted table holds the word at `sortPerm t k`, and by hypothesis it is the word `k`. -/
private theorem word_sortPerm (k : Fin 256) : t (Shape.Idx.ofFin (sortPerm t k)) = BitVec.ofNat 32 k.val := by
  have e := hs (Shape.Idx.ofFin k)
  rw [sort_eq] at e
  rw [Shape.Idx.ofFin_zero] at e
  rw [e]
  unfold iotaInDim
  rw [Shape.Idx.ofFin_zero]

/-- The word at `sortPerm t k` is `k`, a number below 256, so `entry` reads `k` off it. -/
private theorem entry_sortPerm_aux (k : Fin 256) : entry t (sortPerm t k) = k := by
  apply Fin.ext
  show (t (Shape.Idx.ofFin (sortPerm t k))).toNat % 256 = k.val
  rw [word_sortPerm t hs k, BitVec.toNat_ofNat]
  have hk := k.isLt
  omega

/-- Under the hypothesis every word of the table is the number `entry` reads off it. -/
theorem entry_spec (i : Fin 256) : t (Shape.Idx.ofFin i) = BitVec.ofNat 32 (entry t i).val := by
  obtain ⟨k, rfl⟩ := (sortPerm_bijective t).2 i
  rw [word_sortPerm t hs k, entry_sortPerm_aux t hs k]

/-- `entry` undoes `sortPerm`. -/
theorem entry_sortPerm (k : Fin 256) : entry t (sortPerm t k) = k :=
  entry_sortPerm_aux t hs k

end

end Cert.ShuffleNorm

end
-- ==== Proof.PreFacts.lean ====
/-
  What the precondition says: every entry of the three float arrays is a real number, and the index table sorts to
  0, 1, …, 255.
-/
import proofs.«421362_j51101520888529_1_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.ShuffleNorm

open Idealize.ShloMosaic

/-- An extended real whose absolute value is strictly below +∞ is a real number. -/
private theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  unfold Ideal.cmp at h
  have hlt : a < ⊤ ∧ -a < ⊤ := by
    simpa [StableHlo.Predicate.ofBool_eq_one_iff, max_lt_iff] using h
  induction a using EReal.rec with
  | bot => simp at hlt
  | coe r => exact ⟨r, rfl⟩
  | top => simp at hlt

theorem pre_decode (x : FVec Ideal Cert.Pre_finite_inputs.S256x32x32x256 .f32)
    (γ β : FVec Ideal Cert.Pre_finite_inputs.S4x256 .f32) (t : IVec Cert.Pre_finite_inputs.S256 32)
    (h : Cert.Pre_finite_inputs.fn (F := Ideal) x γ β t = fun _ => 1#1) :
    (∀ i, ∃ r : ℝ, x i = (r : EReal)) ∧ (∀ i, ∃ r : ℝ, γ i = (r : EReal)) ∧ (∀ i, ∃ r : ℝ, β i = (r : EReal))
      ∧ ∀ j, Host.sort Cert.Pre_finite_inputs.S256 0 (fun l r : BitVec 32 => IntOp.cmpi .slt l r) t j
          = iotaInDim Cert.Pre_finite_inputs.S256 32 0 j := by
  -- the result has rank zero, hence a single index
  haveI : Subsingleton Cert.Pre_finite_inputs.S_.Idx := ⟨fun a b => funext fun d => d.elim0⟩
  -- the four conjuncts, each a conjunction over all entries of an array that came out true
  have h0 := congrFun h ValueIdx.ix0
  unfold Cert.Pre_finite_inputs.fn Cert.Pre_finite_inputs.fn_part1 at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun j => ?_⟩
  · exact real_of_abs_lt_inf (x i) (Host.reduce_andi_all _ _ _ _ _ h1 i)
  · exact real_of_abs_lt_inf (γ i) (Host.reduce_andi_all _ _ _ _ _ h2 i)
  · exact real_of_abs_lt_inf (β i) (Host.reduce_andi_all _ _ _ _ _ h3 i)
  · exact StableHlo.Predicate.cmpi_eq_iff.1 (Host.reduce_andi_all _ _ _ _ _ h4 j)

end Cert.ShuffleNorm

end
-- ==== Proof.RefTerm.lean ====
/-
  The reference's result as one function of its four argument arrays: the operations of its program composed in
  order — the index table normalised (a negative entry raised by 256) and used to gather the batch, the gathered
  batch cut into four groups, each group's mean and mean squared deviation per channel, the normalisation, the
  groups joined again, and the gather through the sorting permutation of the index table.
-/
import proofs.«421362_j51101520888529_1_alg».proof.ReferenceIdeal
import proofs.«421362_j51101520888529_1_alg».proof.Proof.Gen.ReferenceIdeal

noncomputable section

namespace Cert.ReferenceIdeal.RefValue

open Idealize.ShloMosaic Cert.ReferenceIdeal Cert.ReferenceIdeal.Facts₀

variable {F : FTy → Type} [FloatOps F]

/-- An index table made ready for a gather: entries below zero raised by 256, one start index per row. -/
def normIdx (t : IVec S256 32) : IVec S256x1 32 :=
  let c0 : IVec S_ 32 := constantI S_ 32 0#32
  let z : IVec S256 32 := broadcastInDim S256 ![] bcast_S_S256 c0
  let neg : IVec S256 1 := cmpi .slt t z
  let c256 : IVec S_ 32 := constantI S_ 32 256#32
  let w : IVec S256 32 := broadcastInDim S256 ![] bcast_S_S256 c256
  let up : IVec S256 32 := addi t w
  let sel : IVec S256 32 := select neg up t
  broadcastInDim S256x1 ![0] bcast_S256_S256x1_0 sel

/-- Rows of `x` taken at the start indices `i`. -/
def rows (x : FVec F S256x32x32x256 .f32) (i : IVec S256x1 32) : FVec F S256x32x32x256 .f32 :=
  Host.gather gather_S256x32x32x256_S256x1_S256x32x32x256_123_0_n_n_0_1_13232256 x i

/-- The mean squared deviation of each group per channel, as the program computes it: the deviations from the mean
    squared and summed, divided by the entry count less a correction of zero, kept where that divisor is positive. -/
def groupVar (v7 : FVec F S4x64x32x32x256 .f32) (c_2 : IVec S_ 32) : FVec F S4x1x1x1x256 .f32 :=
  let cst : FVec F S_ .f32 := constant S_ .f32 0x00000000#32
  let a0 : FVec F S4x256 .f32 := Host.reduceAdd v7 cst reducesTo_S4x64x32x32x256_S4x256_d1_2_3 h_S_
  let a1 : FVec F S4x1x1x1x256 .f32 := broadcastInDim S4x1x1x1x256 ![0, 4] bcast_S4x256_S4x1x1x1x256_0_4 a0
  let cst_0 : FVec F S_ .f32 := constant S_ .f32 0x47800000#32
  let a2 : FVec F S4x1x1x1x256 .f32 := broadcastInDim S4x1x1x1x256 ![] bcast_S_S4x1x1x1x256 cst_0
  let a3 : FVec F S4x1x1x1x256 .f32 := Host.divf a1 a2
  let a4 : FVec F S4x64x32x32x256 .f32 := broadcastInDim S4x64x32x32x256 ![0, 1, 2, 3, 4] bcast_S4x1x1x1x256_S4x64x32x32x256_0_1_2_3_4 a3
  let a5 : FVec F S4x64x32x32x256 .f32 := subf v7 a4
  let a6 : FVec F S4x64x32x32x256 .f32 := mulf a5 a5
  let a7 : FVec F S_ .f32 := sitofp .f32 c_2
  let cst_1 : FVec F S_ .f32 := constant S_ .f32 0x47800000#32
  let a8 : FVec F S_ .f32 := subf cst_1 a7
  let cst_2 : FVec F S_ .f32 := constant S_ .f32 0x00000000#32
  let a9 : FVec F S4x256 .f32 := Host.reduceAdd a6 cst_2 reducesTo_S4x64x32x32x256_S4x256_d1_2_3 h_S_
  let a10 : FVec F S4x1x1x1x256 .f32 := broadcastInDim S4x1x1x1x256 ![0, 4] bcast_S4x256_S4x1x1x1x256_0_4 a9
  let a11 : FVec F S4x1x1x1x256 .f32 := broadcastInDim S4x1x1x1x256 ![] bcast_S_S4x1x1x1x256 a8
  let a12 : FVec F S4x1x1x1x256 .f32 := Host.divf a10 a11
  let cst_3 : FVec F S_ .f32 := constant S_ .f32 0x00000000#32
  let a13 : IVec S_ 1 := cmpf .ogt a8 cst_3
  let cst_4 : FVec F S_ .f32 := constant S_ .f32 0x7FC00000#32
  let w0 : FVec F S_ .f32 := id cst_4
  let w1 : FVec F S4x1x1x1x256 .f32 := broadcastInDim S4x1x1x1x256 ![] bcast_S_S4x1x1x1x256 w0
  select (broadcastInDim S4x1x1x1x256 ![] bcast_S_S4x1x1x1x256 a13) a12 w1

/-- The reference's result. -/
def refTerm (x : FVec F S256x32x32x256 .f32) (γ β : FVec F S4x256 .f32) (t : IVec S256 32) : FVec F S256x32x32x256 .f32 :=
  let v6 : FVec F S256x32x32x256 .f32 := rows x (normIdx t)
  let v7 : FVec F S4x64x32x32x256 .f32 := shapeCast S4x64x32x32x256 v6 shapeCasts_S256x32x32x256_S4x64x32x32x256
  let cst : FVec F S_ .f32 := constant S_ .f32 0x00000000#32
  let v8 : FVec F S4x256 .f32 := Host.reduceAdd v7 cst reducesTo_S4x64x32x32x256_S4x256_d1_2_3 h_S_
  let v9 : FVec F S4x1x1x1x256 .f32 := broadcastInDim S4x1x1x1x256 ![0, 4] bcast_S4x256_S4x1x1x1x256_0_4 v8
  let cst_1 : FVec F S_ .f32 := constant S_ .f32 0x47800000#32
  let v10 : FVec F S4x1x1x1x256 .f32 := broadcastInDim S4x1x1x1x256 ![] bcast_S_S4x1x1x1x256 cst_1
  let v11 : FVec F S4x1x1x1x256 .f32 := Host.divf v9 v10
  let c_2 : IVec S_ 32 := constantI S_ 32 0#32
  let v12 : FVec F S4x1x1x1x256 .f32 := groupVar v7 c_2
  let v13 : FVec F S4x1x1x1x256 .f32 := broadcastInDim S4x1x1x1x256 ![0, 4] bcast_S4x256_S4x1x1x1x256_0_4 γ
  let v14 : FVec F S4x1x1x1x256 .f32 := broadcastInDim S4x1x1x1x256 ![0, 4] bcast_S4x256_S4x1x1x1x256_0_4 β
  let v15 : FVec F S4x64x32x32x256 .f32 := broadcastInDim S4x64x32x32x256 ![0, 1, 2, 3, 4] bcast_S4x1x1x1x256_S4x64x32x32x256_0_1_2_3_4 v11
  let v16 : FVec F S4x64x32x32x256 .f32 := subf v7 v15
  let cst_3 : FVec F S_ .f32 := constant S_ .f32 0x3A83126F#32
  let v17 : FVec F S4x1x1x1x256 .f32 := broadcastInDim S4x1x1x1x256 ![] bcast_S_S4x1x1x1x256 cst_3
  let v18 : FVec F S4x1x1x1x256 .f32 := addf v12 v17
  let v19 : FVec F S4x1x1x1x256 .f32 := Host.rsqrt v18
  let v20 : FVec F S4x64x32x32x256 .f32 := broadcastInDim S4x64x32x32x256 ![0, 1, 2, 3, 4] bcast_S4x1x1x1x256_S4x64x32x32x256_0_1_2_3_4 v19
  let v21 : FVec F S4x64x32x32x256 .f32 := mulf v16 v20
  let v22 : FVec F S4x64x32x32x256 .f32 := broadcastInDim S4x64x32x32x256 ![0, 1, 2, 3, 4] bcast_S4x1x1x1x256_S4x64x32x32x256_0_1_2_3_4 v13
  let v23 : FVec F S4x64x32x32x256 .f32 := mulf v21 v22
  let v24 : FVec F S4x64x32x32x256 .f32 := broadcastInDim S4x64x32x32x256 ![0, 1, 2, 3, 4] bcast_S4x1x1x1x256_S4x64x32x32x256_0_1_2_3_4 v14
  let v25 : FVec F S4x64x32x32x256 .f32 := addf v23 v24
  let v26 : FVec F S256x32x32x256 .f32 := shapeCast S256x32x32x256 v25 shapeCasts_S4x64x32x32x256_S256x32x32x256
  let iota : IVec S256 32 := iotaInDim S256 32 0
  let v27 : IVec S256 32 := (Host.sort2 S256 0 comparator_i32_i32_d0 t iota).2
  rows v26 (normIdx v27)

end Cert.ReferenceIdeal.RefValue

end
-- ==== Proof.RefRun.lean ====
/-
  The reference program's run: every weakly fair execution terminates without a fault, leaves the argument arrays as
  they were, and leaves in the result buffer the composition of the program's operations applied to the arguments.

  The program is a straight line: it has no kernel and no loop, and each function it calls is itself a straight line
  over buffers of that call's own. Written out with the calls' bodies in their places it is a list of operations,
  each overwriting one buffer with a function of the contents of others; a run of such a list from given contents
  ends with every buffer at the fold of those overwrites. Read at the result buffer the fold is the operations'
  functions composed in the order the program applies them, which is the reference's result term; read at an
  argument's buffer, which no operation writes, it is what was there.
-/
import proofs.«421362_j51101520888529_1_alg».proof.Proof.RefTerm
import Idealize.ShloMosaic.Lib.StableHlo.Run

noncomputable section

namespace Cert.ReferenceIdeal.RefRun

open Idealize.ShloMosaic Idealize.SL.Sem Cert.ReferenceIdeal Cert.ReferenceIdeal.Facts₀
open Idealize.ShloMosaic.TcCoe Idealize.ShloMosaic.StableHlo

variable {F : FTy → Type} [FloatOps F]

/-- The program as one straight line of 67 operations, in the order it runs them: its own first seventeen (the index table
    normalised and used to gather the batch, the batch cut into groups, each group's sum and mean); the variance
    function's twenty, over that call's own buffers, with the three of the selection function it calls in their
    place at the end (the last of them writes the call's result); fifteen more of its own (the normalisation, scale and
    shift, the groups joined again); the three of the sorting-permutation function over that call's buffers (the last
    writes the call's result); and its last nine (the permutation normalised as an index table, and the final gather). -/
abbrev ops : List (HloOp τ sig (Elt F)) :=
  [ nullary main_c (constantI S_ 32 0#32),
    unary main_c main_v0 (broadcastInDim S256 ![] bcast_S_S256 : (⟨S_, .i32⟩ : BufTy).Contents (Elt F) → (⟨S256, .i32⟩ : BufTy).Contents (Elt F)),
    binary main_arg3 main_v0 main_v1 (cmpi .slt : (⟨S256, .i32⟩ : BufTy).Contents (Elt F) → (⟨S256, .i32⟩ : BufTy).Contents (Elt F) → (⟨S256, .i1⟩ : BufTy).Contents (Elt F)),
    nullary main_c_0 (constantI S_ 32 256#32),
    unary main_c_0 main_v2 (broadcastInDim S256 ![] bcast_S_S256 : (⟨S_, .i32⟩ : BufTy).Contents (Elt F) → (⟨S256, .i32⟩ : BufTy).Contents (Elt F)),
    binary main_arg3 main_v2 main_v3 (addi : (⟨S256, .i32⟩ : BufTy).Contents (Elt F) → (⟨S256, .i32⟩ : BufTy).Contents (Elt F) → (⟨S256, .i32⟩ : BufTy).Contents (Elt F)),
    ternary main_v1 main_v3 main_arg3 main_v4 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v4 main_v5 (broadcastInDim S256x1 ![0] bcast_S256_S256x1_0 : (⟨S256, .i32⟩ : BufTy).Contents (Elt F) → (⟨S256x1, .i32⟩ : BufTy).Contents (Elt F)),
    binary main_arg0 main_v5 main_v6 ((fun x i => Host.gather gather_S256x32x32x256_S256x1_S256x32x32x256_123_0_n_n_0_1_13232256 x i) : (⟨S256x32x32x256, .f32⟩ : BufTy).Contents (Elt F) → (⟨S256x1, .i32⟩ : BufTy).Contents (Elt F) → (⟨S256x32x32x256, .f32⟩ : BufTy).Contents (Elt F)),
    reshape main_v6 main_v7 rfl shapeCasts_S256x32x32x256_S4x64x32x32x256,
    nullary main_cst (constant S_ .f32 0x00000000#32),
    binary main_v7 main_cst main_v8 ((fun x v => Host.reduceAdd x v reducesTo_S4x64x32x32x256_S4x256_d1_2_3 h_S_) : (⟨S4x64x32x32x256, .f32⟩ : BufTy).Contents (Elt F) → (⟨S_, .f32⟩ : BufTy).Contents (Elt F) → (⟨S4x256, .f32⟩ : BufTy).Contents (Elt F)),
    unary main_v8 main_v9 (broadcastInDim S4x1x1x1x256 ![0, 4] bcast_S4x256_S4x1x1x1x256_0_4 : (⟨S4x256, .f32⟩ : BufTy).Contents (Elt F) → (⟨S4x1x1x1x256, .f32⟩ : BufTy).Contents (Elt F)),
    nullary main_cst_1 (constant S_ .f32 0x47800000#32),
    unary main_cst_1 main_v10 (broadcastInDim S4x1x1x1x256 ![] bcast_S_S4x1x1x1x256 : (⟨S_, .f32⟩ : BufTy).Contents (Elt F) → (⟨S4x1x1x1x256, .f32⟩ : BufTy).Contents (Elt F)),
    binary main_v9 main_v10 main_v11 (Host.divf : (⟨S4x1x1x1x256, .f32⟩ : BufTy).Contents (Elt F) → (⟨S4x1x1x1x256, .f32⟩ : BufTy).Contents (Elt F) → (⟨S4x1x1x1x256, .f32⟩ : BufTy).Contents (Elt F)),
    nullary main_c_2 (constantI S_ 32 0#32),
    TRef.nullary main_call0.cst (constant S_ .f32 0x00000000#32),
    TRef.binary (.of main_v7) main_call0.cst main_call0.v0 (fun x v => Host.reduceAdd x v reducesTo_S4x64x32x32x256_S4x256_d1_2_3 h_S_),
    TRef.unary main_call0.v0 main_call0.v1 (broadcastInDim S4x1x1x1x256 ![0, 4] bcast_S4x256_S4x1x1x1x256_0_4),
    TRef.nullary main_call0.cst_0 (constant S_ .f32 0x47800000#32),
    TRef.unary main_call0.cst_0 main_call0.v2 (broadcastInDim S4x1x1x1x256 ![] bcast_S_S4x1x1x1x256),
    TRef.binary main_call0.v1 main_call0.v2 main_call0.v3 Host.divf,
    TRef.unary main_call0.v3 main_call0.v4 (broadcastInDim S4x64x32x32x256 ![0, 1, 2, 3, 4] bcast_S4x1x1x1x256_S4x64x32x32x256_0_1_2_3_4),
    TRef.binary (.of main_v7) main_call0.v4 main_call0.v5 subf,
    TRef.binary main_call0.v5 main_call0.v5 main_call0.v6 mulf,
    TRef.unary (.of main_c_2) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x64x32x32x256_S4x256_d1_2_3 h_S_),
    TRef.unary main_call0.v9 main_call0.v10 (broadcastInDim S4x1x1x1x256 ![0, 4] bcast_S4x256_S4x1x1x1x256_0_4),
    TRef.unary main_call0.v8 main_call0.v11 (broadcastInDim S4x1x1x1x256 ![] bcast_S_S4x1x1x1x256),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x1x1x1x256 ![] bcast_S_S4x1x1x1x256),
    TRef.ternary main_call0.v13 main_call0.v12 main_call0.call0.v1 main_call0.call0.v2 (fun p a b => select (broadcastInDim S4x1x1x1x256 ![] bcast_S_S4x1x1x1x256 p) a b),
    unary main_arg1 main_v13 (broadcastInDim S4x1x1x1x256 ![0, 4] bcast_S4x256_S4x1x1x1x256_0_4 : (⟨S4x256, .f32⟩ : BufTy).Contents (Elt F) → (⟨S4x1x1x1x256, .f32⟩ : BufTy).Contents (Elt F)),
    unary main_arg2 main_v14 (broadcastInDim S4x1x1x1x256 ![0, 4] bcast_S4x256_S4x1x1x1x256_0_4 : (⟨S4x256, .f32⟩ : BufTy).Contents (Elt F) → (⟨S4x1x1x1x256, .f32⟩ : BufTy).Contents (Elt F)),
    unary main_v11 main_v15 (broadcastInDim S4x64x32x32x256 ![0, 1, 2, 3, 4] bcast_S4x1x1x1x256_S4x64x32x32x256_0_1_2_3_4 : (⟨S4x1x1x1x256, .f32⟩ : BufTy).Contents (Elt F) → (⟨S4x64x32x32x256, .f32⟩ : BufTy).Contents (Elt F)),
    binary main_v7 main_v15 main_v16 (subf : (⟨S4x64x32x32x256, .f32⟩ : BufTy).Contents (Elt F) → (⟨S4x64x32x32x256, .f32⟩ : BufTy).Contents (Elt F) → (⟨S4x64x32x32x256, .f32⟩ : BufTy).Contents (Elt F)),
    nullary main_cst_3 (constant S_ .f32 0x3A83126F#32),
    unary main_cst_3 main_v17 (broadcastInDim S4x1x1x1x256 ![] bcast_S_S4x1x1x1x256 : (⟨S_, .f32⟩ : BufTy).Contents (Elt F) → (⟨S4x1x1x1x256, .f32⟩ : BufTy).Contents (Elt F)),
    binary main_v12 main_v17 main_v18 (addf : (⟨S4x1x1x1x256, .f32⟩ : BufTy).Contents (Elt F) → (⟨S4x1x1x1x256, .f32⟩ : BufTy).Contents (Elt F) → (⟨S4x1x1x1x256, .f32⟩ : BufTy).Contents (Elt F)),
    unary main_v18 main_v19 (Host.rsqrt : (⟨S4x1x1x1x256, .f32⟩ : BufTy).Contents (Elt F) → (⟨S4x1x1x1x256, .f32⟩ : BufTy).Contents (Elt F)),
    unary main_v19 main_v20 (broadcastInDim S4x64x32x32x256 ![0, 1, 2, 3, 4] bcast_S4x1x1x1x256_S4x64x32x32x256_0_1_2_3_4 : (⟨S4x1x1x1x256, .f32⟩ : BufTy).Contents (Elt F) → (⟨S4x64x32x32x256, .f32⟩ : BufTy).Contents (Elt F)),
    binary main_v16 main_v20 main_v21 (mulf : (⟨S4x64x32x32x256, .f32⟩ : BufTy).Contents (Elt F) → (⟨S4x64x32x32x256, .f32⟩ : BufTy).Contents (Elt F) → (⟨S4x64x32x32x256, .f32⟩ : BufTy).Contents (Elt F)),
    unary main_v13 main_v22 (broadcastInDim S4x64x32x32x256 ![0, 1, 2, 3, 4] bcast_S4x1x1x1x256_S4x64x32x32x256_0_1_2_3_4 : (⟨S4x1x1x1x256, .f32⟩ : BufTy).Contents (Elt F) → (⟨S4x64x32x32x256, .f32⟩ : BufTy).Contents (Elt F)),
    binary main_v21 main_v22 main_v23 (mulf : (⟨S4x64x32x32x256, .f32⟩ : BufTy).Contents (Elt F) → (⟨S4x64x32x32x256, .f32⟩ : BufTy).Contents (Elt F) → (⟨S4x64x32x32x256, .f32⟩ : BufTy).Contents (Elt F)),
    unary main_v14 main_v24 (broadcastInDim S4x64x32x32x256 ![0, 1, 2, 3, 4] bcast_S4x1x1x1x256_S4x64x32x32x256_0_1_2_3_4 : (⟨S4x1x1x1x256, .f32⟩ : BufTy).Contents (Elt F) → (⟨S4x64x32x32x256, .f32⟩ : BufTy).Contents (Elt F)),
    binary main_v23 main_v24 main_v25 (addf : (⟨S4x64x32x32x256, .f32⟩ : BufTy).Contents (Elt F) → (⟨S4x64x32x32x256, .f32⟩ : BufTy).Contents (Elt F) → (⟨S4x64x32x32x256, .f32⟩ : BufTy).Contents (Elt F)),
    reshape main_v25 main_v26 rfl shapeCasts_S4x64x32x32x256_S256x32x32x256,
    TRef.nullary main_call1.v0 (iotaInDim S256 32 0),
    TRef.binary (.of main_arg3) main_call1.v0 main_call1.v1_0 (fun x y => (Host.sort2 S256 0 comparator_i32_i32_d0 x y).1),
    TRef.binary (.of main_arg3) main_call1.v0 main_call1.v1_1 (fun x y => (Host.sort2 S256 0 comparator_i32_i32_d0 x y).2),
    nullary main_c_4 (constantI S_ 32 0#32),
    unary main_c_4 main_v28 (broadcastInDim S256 ![] bcast_S_S256 : (⟨S_, .i32⟩ : BufTy).Contents (Elt F) → (⟨S256, .i32⟩ : BufTy).Contents (Elt F)),
    binary main_v27 main_v28 main_v29 (cmpi .slt : (⟨S256, .i32⟩ : BufTy).Contents (Elt F) → (⟨S256, .i32⟩ : BufTy).Contents (Elt F) → (⟨S256, .i1⟩ : BufTy).Contents (Elt F)),
    nullary main_c_5 (constantI S_ 32 256#32),
    unary main_c_5 main_v30 (broadcastInDim S256 ![] bcast_S_S256 : (⟨S_, .i32⟩ : BufTy).Contents (Elt F) → (⟨S256, .i32⟩ : BufTy).Contents (Elt F)),
    binary main_v27 main_v30 main_v31 (addi : (⟨S256, .i32⟩ : BufTy).Contents (Elt F) → (⟨S256, .i32⟩ : BufTy).Contents (Elt F) → (⟨S256, .i32⟩ : BufTy).Contents (Elt F)),
    ternary main_v29 main_v31 main_v27 main_v32 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v32 main_v33 (broadcastInDim S256x1 ![0] bcast_S256_S256x1_0 : (⟨S256, .i32⟩ : BufTy).Contents (Elt F) → (⟨S256x1, .i32⟩ : BufTy).Contents (Elt F)),
    binary main_v26 main_v33 main_v34 ((fun x i => Host.gather gather_S256x32x32x256_S256x1_S256x32x32x256_123_0_n_n_0_1_13232256 x i) : (⟨S256x32x32x256, .f32⟩ : BufTy).Contents (Elt F) → (⟨S256x1, .i32⟩ : BufTy).Contents (Elt F) → (⟨S256x32x32x256, .f32⟩ : BufTy).Contents (Elt F)) ]

set_option maxRecDepth 2048 in
/-- The program is that line: with each called function's definition put at its call and sequencing re-associated,
    both sides are the same chain of steps. -/
theorem main_eq (c : Dev nD) : main (F := F) c = seq ops := by
  simp only [main, fn_var.body, fn_where.body, fn_argsort.body, seq, bind_assoc, pure_bind]

/-- No buffer of the program is scoped to a region. -/
theorem scopedRefs_eq : (Finset.univ.filter fun b : Ref sig .tc => b.isScoped) = ∅ := by decide
/-- The program has no semaphore, so none is scoped. -/
theorem scopedSems_eq : (Finset.univ.filter fun sm : SemLoc sig => sm.isScoped .tc) = ∅ := by decide

/-- Every operation of the line touches buffers of the device's own only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., reshape_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- From any memory with zero counters every weakly fair execution of the program terminates, and every buffer ends at
    the fold of the line's overwrites over the contents it started from. -/
theorem run_main (m : (ℓ : Loc nD τ sig) → Buf (Elt F) ℓ) (g : Dev nD → PrngReg) :
    θ_run (defs (F := F)) (onTc (τ := τ) (main (F := F))) ⟨m, fun _ => 0, g⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m g

attribute [local irreducible] Host.gather Host.sort2 Host.reduceAdd in
set_option maxRecDepth 8192 in
/-- The fold read at the result buffer is the reference's result term of the arguments' contents: each operation's
    overwrite read at its own buffer is its function of the contents of the buffers it reads, at any other buffer
    what was there; what is left composes the operations' functions in the program's order, with the typed buffers'
    changes of type the identity, and that composition is the term. -/
theorem out_eq (V : Valuation τ sig (Elt F)) :
    after ops V (main_v34 : DevRef τ sig)
      = RefValue.refTerm (V (main_arg0 : DevRef τ sig)) (V (main_arg1 : DevRef τ sig)) (V (main_arg2 : DevRef τ sig))
          (V (main_arg3 : DevRef τ sig)) := by
  after_results_simp
  rfl

/-- No operation writes the first argument's buffer. -/
theorem arg0_eq (V : Valuation τ sig (Elt F)) : after ops V (main_arg0 : DevRef τ sig) = V (main_arg0 : DevRef τ sig) := by
  after_results_simp
/-- No operation writes the second argument's buffer. -/
theorem arg1_eq (V : Valuation τ sig (Elt F)) : after ops V (main_arg1 : DevRef τ sig) = V (main_arg1 : DevRef τ sig) := by
  after_results_simp
/-- No operation writes the third argument's buffer. -/
theorem arg2_eq (V : Valuation τ sig (Elt F)) : after ops V (main_arg2 : DevRef τ sig) = V (main_arg2 : DevRef τ sig) := by
  after_results_simp
/-- No operation writes the fourth argument's buffer. -/
theorem arg3_eq (V : Valuation τ sig (Elt F)) : after ops V (main_arg3 : DevRef τ sig) = V (main_arg3 : DevRef τ sig) := by
  after_results_simp

/-- On every device, for any float values, from any memory with zero counters: every weakly fair execution of the
    program terminates, with the result buffer at the reference's result term of the arguments' starting contents and
    the four arguments unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v34)
          = RefValue.refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(h c main_v34).trans (out_eq (launchContents m c)), (h c main_arg0).trans (arg0_eq (launchContents m c)),
      (h c main_arg1).trans (arg1_eq (launchContents m c)), (h c main_arg2).trans (arg2_eq (launchContents m c)),
      (h c main_arg3).trans (arg3_eq (launchContents m c))⟩)
    (run_main m g)

end Cert.ReferenceIdeal.RefRun

end
-- ==== Proof.RefValue.lean ====
/-
  The reference's result read at one element: entry (b, h, w, c) of the result is the normalised shuffled batch at
  image b's position — the first formula of the specification — once the index table's words are known as numbers
  (ρ) and its sorting permutation as a function (σ).

  The route, operation by operation: a table word that is a number below 256 is not negative, so the table's
  normalisation leaves it; a gather of rows at such a word reads the row of that number; cutting the 256 rows into
  4 groups of 64 sends (p, s) to row 64 p + s, and joining them sends row i to (i / 64, i % 64); the sum over the
  three inner axes at (p, c) is the sum over the group's 64 × 32 × 32 entries of channel c; a table spread over
  further axes reads the table at the coordinates it has. The mean squared deviation's divisor is the entry count
  less zero, which is positive, so its guard keeps the quotient.
-/
import proofs.«421362_j51101520888529_1_alg».proof.Proof.RefTerm
import proofs.«421362_j51101520888529_1_alg».proof.Proof.Spec
import proofs.«421362_j51101520888529_1_alg».proof.Proof.SpecLaws
import Idealize.ShloMosaic.Lib.ValueIdx
import Idealize.ShloMosaic.Lib.ValueLayout
import Idealize.ShloMosaic.Lib.Pipeline.Value
import Idealize.ShloMosaic.Lib.SortFacts
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀

/-! ## Table words that are numbers below 256 -/

/-- A number below 256, as a 32-bit word read signed, is itself. -/
theorem word_toInt (k : Nat) (hk : k < 256) : (BitVec.ofNat 32 k).toInt = (k : Int) := by
  have hn : (BitVec.ofNat 32 k).toNat = k := by
    rw [BitVec.toNat_ofNat]; exact Nat.mod_eq_of_lt (by omega)
  rw [BitVec.toInt_eq_toNat_of_lt (by rw [hn]; omega), hn]

/-- Such a word is not below zero. -/
theorem word_not_neg (k : Nat) (hk : k < 256) : IntOp.cmpi .slt (BitVec.ofNat 32 k) 0#32 = 0#1 := by
  unfold IntOp.cmpi
  have h : (BitVec.ofNat 32 k).slt 0#32 = false := by
    rw [BitVec.slt, decide_eq_false_iff_not, word_toInt k hk]
    simp only [BitVec.toInt_zero]
    omega
  simp only [h]
  rfl

/-- A table whose words are numbers below 256 is left as it is by the normalisation: row i of the start indices is
    the table's word at i. -/
theorem normIdx_apply (t : IVec S256 32) (k : Fin 256 → Fin 256)
    (ht : ∀ i : Fin 256, t (Shape.Idx.ofFin i) = BitVec.ofNat 32 (k i).val) (i : Fin 256) :
    normIdx t (ix2 i (0 : Fin 1)) = BitVec.ofNat 32 (k i).val := by
  unfold normIdx
  refine (broadcastInDim_apply _ _ _ (ix2 i (0 : Fin 1)) (Shape.Idx.ofFin i) (fun a => ?_)).trans ?_
  · obtain rfl : a = 0 := Subsingleton.elim _ _
    rfl
  · rw [select_apply]
    show Scalar.select (IntOp.cmpi .slt (t (Shape.Idx.ofFin i)) 0#32) _ (t (Shape.Idx.ofFin i)) = _
    rw [ht i, word_not_neg _ (k i).isLt, select_zero]

/-! ## A gather of rows at such a word -/

local notation "gD" => gather_S256x32x32x256_S256x1_S256x32x32x256_123_0_n_n_0_1_13232256

/-- On an offset axis the gather reads the result's own coordinate. -/
theorem gD_off (j : S256x32x32x256.Idx) (idx : IVec S256x1 32) (n : Nat) (hn : n + 1 < S256x32x32x256.rank) :
    (gD).start j idx ⟨n + 1, hn⟩ + (gD).offCoord j ⟨n + 1, hn⟩ = (j ⟨n + 1, hn⟩).val := by
  have hne : (⟨n + 1, hn⟩ : Fin S256x32x32x256.rank) ≠ 0 := fun hh => absurd (Fin.val_eq_of_eq hh) (Nat.succ_ne_zero n)
  have hm : (⟨n + 1, hn⟩ : Fin S256x32x32x256.rank) ∉ (gD).startIndexMap := fun hh => hne (List.mem_singleton.mp hh)
  have hk : (⟨n + 1, hn⟩ : Fin S256x32x32x256.rank) ∈ (gD).sKept :=
    (GatherDims.mem_sKept _ _).mpr ⟨fun hh => hne (List.mem_singleton.mp hh), List.not_mem_nil⟩
  unfold GatherDims.start GatherDims.offCoord
  rw [dif_neg hm, Nat.zero_add, dif_pos hk]
  match n, hn with
  | 0, _ => rfl
  | 1, _ => rfl
  | 2, _ => rfl

/-- Rows taken at start indices whose word at row i is the number k: row i of the result is row k of the operand
    (the start read signed is k, and clamping to [0, 255] leaves it). -/
theorem rows_apply (x : FVec Ideal S256x32x32x256 .f32) (idx : IVec S256x1 32) (i k : Fin 256) (h w : Fin 32) (c : Fin 256)
    (hi : idx (ix2 i (0 : Fin 1)) = BitVec.ofNat 32 k.val) :
    rows x idx (ix4 i h w c) = x (ix4 k h w c) := by
  unfold rows Host.gather
  refine congrArg x (funext fun a => Fin.ext ?_)
  show GatherDims.start _ (ix4 i h w c) idx a + GatherDims.batchCoord _ (ix4 i h w c) a + GatherDims.offCoord _ (ix4 i h w c) a = _
  rw [GatherDims.batchCoord_eq_zero _ _ _ List.not_mem_nil, Nat.add_zero]
  match a with
  | ⟨0, h0⟩ =>
    have hm : (⟨0, h0⟩ : Fin S256x32x32x256.rank) ∈ (gD).startIndexMap := List.mem_singleton.mpr rfl
    rw [GatherDims.offCoord_eq_zero _ _ _ (fun hh => ((GatherDims.mem_sKept _ _).mp hh).1 (List.mem_singleton.mpr rfl)), Nat.add_zero]
    unfold GatherDims.start
    rw [dif_pos hm]
    have hsi : (gD).siIdx (ix4 i h w c) ⟨List.idxOf (⟨0, h0⟩ : Fin S256x32x32x256.rank) (gD).startIndexMap,
        List.idxOf_lt_length_iff.2 hm⟩ = ix2 i (0 : Fin 1) := by
      funext b; refine Fin.ext ?_
      match b with
      | ⟨0, _⟩ => rfl
      | ⟨1, _⟩ => rfl
    rw [hsi, hi, word_toInt _ k.isLt]
    show min ((k.val : Int).toNat) (256 - 1) = k.val
    have := k.isLt
    simp only [Int.toNat_natCast]
    omega
  | ⟨1, h1⟩ => exact gD_off _ idx 0 h1
  | ⟨2, h2⟩ => exact gD_off _ idx 1 h2
  | ⟨3, h3⟩ => exact gD_off _ idx 2 h3

/-! ## Cutting the rows into groups and joining them again -/

/-- Entry (p, s, h, w, c) of the batch cut into groups is entry (64 p + s, h, w, c) of the batch. -/
theorem cast45_apply {α : Type} (v : S256x32x32x256.Idx → α) (p : Fin 4) (s : Fin 64) (h w : Fin 32) (c : Fin 256) :
    shapeCast S4x64x32x32x256 v shapeCasts_S256x32x32x256_S4x64x32x32x256 (ix5 p s h w c)
      = v (ix4 (Cert.ShuffleNorm.pos p s) h w c) := by
  refine shapeCast_apply v _ _ _ ?_
  rw [Shape.rowMajor_val_four, Shape.rowMajor_val_five]
  rfl

/-- Entry (i, h, w, c) of the groups joined again is entry (i / 64, i % 64, h, w, c) of the groups. -/
theorem cast54_apply {α : Type} (v : S4x64x32x32x256.Idx → α) (i : Fin 256) (h w : Fin 32) (c : Fin 256) :
    shapeCast S256x32x32x256 v shapeCasts_S4x64x32x32x256_S256x32x32x256 (ix4 i h w c)
      = v (ix5 (Cert.ShuffleNorm.part i) (Cert.ShuffleNorm.slot i) h w c) := by
  refine shapeCast_apply v _ _ _ ?_
  rw [Shape.rowMajor_val_five, Shape.rowMajor_val_four]
  show ((((i.val / 64) * 64 + i.val % 64) * 32 + h.val) * 32 + w.val) * 256 + c.val
    = ((i.val * 32 + h.val) * 32 + w.val) * 256 + c.val
  have := Nat.div_add_mod i.val 64
  omega

/-! ## The sum over a group's entries -/

/-- The sum over the three inner axes of the grouped batch, read at (p, c): the initial value plus the sum of the
    group's 64 × 32 × 32 entries of channel c. -/
theorem reduce123_apply (v : FVec Ideal S4x64x32x32x256 .f32) (p : Fin 4) (c : Fin 256) :
    Host.reduceAdd v (constant (F := Ideal) S_ .f32 0x00000000#32) reducesTo_S4x64x32x32x256_S4x256_d1_2_3 h_S_ (ix2 p c)
      = Ideal.ofBits .f32 0x00000000#32 + ∑ k : Fin 64 × Fin 32 × Fin 32, v (ix5 p k.1 k.2.1 k.2.2 c) := by
  unfold Host.reduceAdd
  rw [Ideal.hostReduceAdd_def]
  unfold Ideal.hostReduceAdd
  rw [constant_apply]
  congr 1
  symm
  refine Finset.sum_bij (fun k _ => ix5 p k.1 k.2.1 k.2.2 c) ?_ ?_ ?_ ?_
  · intro k _
    rw [Finset.mem_filter]
    refine ⟨Finset.mem_univ _, ?_⟩
    funext b
    match b with
    | ⟨0, _⟩ => rfl
    | ⟨1, _⟩ => rfl
  · intro k _ k' _ hk
    have h1 := congrFun hk ⟨1, by decide⟩
    have h2 := congrFun hk ⟨2, by decide⟩
    have h3 := congrFun hk ⟨3, by decide⟩
    exact Prod.ext h1 (Prod.ext h2 h3)
  · intro b hb
    rw [Finset.mem_filter] at hb
    have h0 : b 0 = p := Fin.ext (congrArg Fin.val (congrFun hb.2 ⟨0, by decide⟩))
    have h4 : b 4 = c := by
      have e4 := congrArg Fin.val (congrFun hb.2 (⟨1, by decide⟩ : Fin S4x256.rank))
      rw [Shape.ReducesTo.drop_apply_val_of_eq _ b ⟨1, by decide⟩ 4] at e4
      exact Fin.ext e4
    refine ⟨(b 1, b 2, b 3), Finset.mem_univ _, ?_⟩
    show ix5 p (b 1) (b 2) (b 3) c = b
    rw [← h0, ← h4]
    exact (eq_ix5 b).symm
  · intro k _
    rfl

/-! ## Tables spread over further axes -/

/-- A per-group, per-channel table spread over unit inner axes reads the table at (p, c). -/
theorem bc25_apply {α : Type} (a : S4x256.Idx → α) (p : Fin 4) (u1 u2 u3 : Fin 1) (c : Fin 256) :
    broadcastInDim S4x1x1x1x256 ![0, 4] bcast_S4x256_S4x1x1x1x256_0_4 a (ix5 p u1 u2 u3 c) = a (ix2 p c) := by
  refine broadcastInDim_apply _ _ a _ (ix2 p c) (fun ax => ?_)
  match ax with
  | ⟨0, _⟩ => rfl
  | ⟨1, _⟩ => rfl

/-- A table with unit inner axes spread over the whole grouped batch reads the table at (p, 0, 0, 0, c). -/
theorem bc55_apply {α : Type} (a : S4x1x1x1x256.Idx → α) (p : Fin 4) (s : Fin 64) (h w : Fin 32) (c : Fin 256) :
    broadcastInDim S4x64x32x32x256 ![0, 1, 2, 3, 4] bcast_S4x1x1x1x256_S4x64x32x32x256_0_1_2_3_4 a (ix5 p s h w c)
      = a (ix5 p (0 : Fin 1) (0 : Fin 1) (0 : Fin 1) c) := by
  refine broadcastInDim_apply _ _ a _ (ix5 p (0 : Fin 1) (0 : Fin 1) (0 : Fin 1) c) (fun ax => ?_)
  match ax with
  | ⟨0, _⟩ => rfl
  | ⟨1, _⟩ => rfl
  | ⟨2, _⟩ => rfl
  | ⟨3, _⟩ => rfl
  | ⟨4, _⟩ => rfl

/-- A scalar spread over any table reads the scalar. -/
theorem bc05_apply {α : Type} (a : S_.Idx → α) (j : S4x1x1x1x256.Idx) :
    broadcastInDim S4x1x1x1x256 ![] bcast_S_S4x1x1x1x256 a j = a ix0 := by
  unfold broadcastInDim
  exact congrArg a (funext fun ax => ax.elim0)

/-! ## A group's mean and mean squared deviation -/

/-- The host's quotient at an index is the ideal quotient of the elements. -/
theorem hostDivf_apply {s : Shape} (a b : FVec Ideal s .f32) (i : s.Idx) : Host.divf a b i = Ideal.div (a i) (b i) := rfl

/-- The host's reciprocal square root at an index is the ideal one of the element. -/
theorem hostRsqrt_apply {s : Shape} (a : FVec Ideal s .f32) (i : s.Idx) : Host.rsqrt a i = Ideal.rsqrt (a i) := rfl

open Cert.ShuffleNorm in
/-- The divisor of the mean squared deviation: the entry count less the conversion of the integer zero. -/
theorem divisor_eq :
    (subf (constant (F := Ideal) S_ .f32 0x47800000#32) (sitofp .f32 (constantI S_ 32 0#32))) ix0 = cN := by
  show cN - (((0#32 : BitVec 32).toInt : ℝ) : EReal) = cN
  rw [BitVec.toInt_zero, Int.cast_zero, EReal.coe_zero, sub_zero]

open Cert.ShuffleNorm in
/-- That divisor is positive, so the guard of the quotient holds. -/
theorem guard_eq :
    cmpf .ogt (subf (constant (F := Ideal) S_ .f32 0x47800000#32) (sitofp .f32 (constantI S_ 32 0#32)))
      (constant (F := Ideal) S_ .f32 0x00000000#32) ix0 = 1#1 := by
  rw [cmpf_apply, divisor_eq]
  show BitVec.ofBool (decide (cZero < cN)) = 1#1
  rw [cN_eq, cZero_eq, decide_eq_true (EReal.coe_pos.mpr (by norm_num))]
  rfl

open Cert.ShuffleNorm in
/-- A group's mean per channel, as the program computes it from the grouped batch. -/
theorem groupMean_apply (v : FVec Ideal S4x64x32x32x256 .f32) (p : Fin 4) (u1 u2 u3 : Fin 1) (c : Fin 256) :
    Host.divf
        (broadcastInDim S4x1x1x1x256 ![0, 4] bcast_S4x256_S4x1x1x1x256_0_4
          (Host.reduceAdd v (constant (F := Ideal) S_ .f32 0x00000000#32) reducesTo_S4x64x32x32x256_S4x256_d1_2_3 h_S_))
        (broadcastInDim S4x1x1x1x256 ![] bcast_S_S4x1x1x1x256 (constant (F := Ideal) S_ .f32 0x47800000#32))
        (ix5 p u1 u2 u3 c)
      = Ideal.div (cZero + ∑ k : Fin 64 × Fin 32 × Fin 32, v (ix5 p k.1 k.2.1 k.2.2 c)) cN := by
  rw [hostDivf_apply, bc25_apply, bc05_apply, reduce123_apply]
  rfl

open Cert.ShuffleNorm in
/-- A group's mean squared deviation per channel, as the program computes it from the grouped batch. -/
theorem groupVar_apply (v : FVec Ideal S4x64x32x32x256 .f32) (p : Fin 4) (u1 u2 u3 : Fin 1) (c : Fin 256) :
    groupVar v (constantI S_ 32 0#32) (ix5 p u1 u2 u3 c)
      = Ideal.div (cZero + ∑ k : Fin 64 × Fin 32 × Fin 32,
          (v (ix5 p k.1 k.2.1 k.2.2 c) - Ideal.div (cZero + ∑ k' : Fin 64 × Fin 32 × Fin 32, v (ix5 p k'.1 k'.2.1 k'.2.2 c)) cN)
          * (v (ix5 p k.1 k.2.1 k.2.2 c) - Ideal.div (cZero + ∑ k' : Fin 64 × Fin 32 × Fin 32, v (ix5 p k'.1 k'.2.1 k'.2.2 c)) cN)) cN := by
  unfold groupVar
  dsimp only
  rw [select_apply, bc05_apply, bc05_apply, guard_eq, select_one, hostDivf_apply, bc25_apply, bc05_apply, divisor_eq,
    reduce123_apply]
  refine congrArg (fun z => Ideal.div (cZero + z) cN) (Finset.sum_congr rfl fun k _ => ?_)
  rw [mulf_apply, subf_apply, bc55_apply, groupMean_apply]

/-! ## The grouped batch, and the result at one element -/

open Cert.ShuffleNorm in
/-- The grouped batch read at (p, s, h, w, c): the image standing at slot s of group p. -/
theorem grouped_apply (x : FVec Ideal S256x32x32x256 .f32) (t : IVec S256 32) (ρ : Fin 256 → Fin 256)
    (hρ : ∀ i : Fin 256, t (Shape.Idx.ofFin i) = BitVec.ofNat 32 (ρ i).val)
    (p : Fin 4) (s : Fin 64) (h w : Fin 32) (c : Fin 256) :
    shapeCast S4x64x32x32x256 (rows x (normIdx t)) shapeCasts_S256x32x32x256_S4x64x32x32x256 (ix5 p s h w c)
      = shuf ρ x p s h w c := by
  rw [cast45_apply, rows_apply x (normIdx t) (pos p s) (ρ (pos p s)) h w c (normIdx_apply t ρ hρ (pos p s))]
  rfl

/-- The reference's result at (b, h, w, c) is the specification's first formula there. -/
theorem refTerm_apply (x : FVec Ideal S256x32x32x256 .f32) (γ β : FVec Ideal S4x256 .f32) (t : IVec S256 32)
    (σ ρ : Fin 256 → Fin 256)
    (hρ : ∀ i : Fin 256, t (Shape.Idx.ofFin i) = BitVec.ofNat 32 (ρ i).val)
    (hσ : ∀ j : S256.Idx,
      (Host.sort2 S256 0 comparator_i32_i32_d0 t (iotaInDim S256 32 0)).2 j = BitVec.ofNat 32 (σ (j 0)).val)
    (b : Fin 256) (h w : Fin 32) (c : Fin 256) :
    refTerm (F := Ideal) x γ β t (ix4 b h w c) = Cert.ShuffleNorm.refAt σ ρ x γ β b h w c := by
  have hσ' : ∀ i : Fin 256, (Host.sort2 S256 0 comparator_i32_i32_d0 t (iotaInDim S256 32 0)).2 (Shape.Idx.ofFin i)
      = BitVec.ofNat 32 (σ i).val := by
    intro i
    rw [hσ (Shape.Idx.ofFin i), Shape.Idx.ofFin_zero]
  unfold refTerm
  dsimp only
  rw [rows_apply _ _ b (σ b) h w c (normIdx_apply _ σ hσ' b), cast54_apply, addf_apply, mulf_apply, mulf_apply,
    subf_apply, bc55_apply, bc55_apply, bc55_apply, bc55_apply, bc25_apply, bc25_apply, hostRsqrt_apply, addf_apply,
    bc05_apply, groupVar_apply, groupMean_apply]
  simp only [grouped_apply x t ρ hρ]
  rfl

end Cert.ReferenceIdeal.RefValue

end
-- ==== Proof.KernelHost0.lean ====
/-
  The host operations before the first kernel region, read at the ideal values: the program sorts the index table
  together with 0, 1, …, 255, divides the sorting permutation by 64 (rounding down) and compares the quotient with
  0, 1, 2, 3. The result is the 0/1 membership table of images in groups; the float arguments are untouched.
-/
import proofs.«421362_j51101520888529_1_alg».proof.Proof.Gen.KernelIdeal.Launch
import proofs.«421362_j51101520888529_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.SortFacts
import Idealize.ShloMosaic.PureOps.Ideal.Laws

noncomputable section

open scoped BigOperators

namespace Cert.KernelIdeal.HostValue

open Idealize.ShloMosaic Idealize.ShloMosaic.ValueIdx Idealize.SL.Sem
open Cert.KernelIdeal Cert.KernelIdeal.Gen Cert.ShuffleNorm

/-- The buffers' contents after the four stretches of host operations that precede the first region. -/
abbrev before0 (W : Valuation τ sig (Elt Ideal)) : Valuation τ sig (Elt Ideal) :=
  StableHlo.after (hostOps0_3 (F := Ideal)) (StableHlo.after (hostOps0_2 (F := Ideal))
    (StableHlo.after (hostOps0_1 (F := Ideal)) (StableHlo.after (hostOps0 (F := Ideal)) W)))

/-! ## The words -/

/-- For a number below 256 the program's rounded-down division by 64 is the quotient of numbers: dividend and divisor
    are non-negative, so the quotient rounded toward zero is already rounded down and no correction applies. -/
private theorem floorDiv64_word (k : Nat) (hk : k < 256) :
    Scalar.select
      (IntOp.andi
        (IntOp.cmpi .ne (if BitVec.ofNat 32 k = 0 then (0 : BitVec 32) else if (BitVec.ofNat 32 k).msb then -1 else 1)
          (if (64#32 : BitVec 32) = 0 then (0 : BitVec 32) else if (64#32 : BitVec 32).msb then -1 else 1))
        (IntOp.cmpi .ne (IntOp.remsi .host (BitVec.ofNat 32 k) 64#32) 0#32))
      (IntOp.subi (IntOp.divsi .host (BitVec.ofNat 32 k) 64#32) 1#32)
      (IntOp.divsi .host (BitVec.ofNat 32 k) 64#32) = BitVec.ofNat 32 (k / 64) := by
  have hx : (BitVec.ofNat 32 k).toNat = k := by rw [BitVec.toNat_ofNat]; omega
  have hm : (BitVec.ofNat 32 k).msb = false := by rw [BitVec.msb_eq_false_iff_two_mul_lt, hx]; omega
  have h64 : 0 < (64#32 : BitVec 32).toInt := by decide
  have hq : IntOp.divsi .host (BitVec.ofNat 32 k) 64#32 = BitVec.ofNat 32 (k / 64) := by
    unfold IntOp.divsi
    rw [if_neg (IntOp.not_corner_of_pos h64), BitVec.sdiv_eq, hm, show (64#32 : BitVec 32).msb = false by decide]
    apply BitVec.eq_of_toNat_eq
    show (BitVec.ofNat 32 k / 64#32).toNat = _
    rw [BitVec.toNat_udiv, hx, BitVec.toNat_ofNat, BitVec.toNat_ofNat]
    simp only [Nat.reducePow, Nat.reduceMod]
    omega
  unfold Scalar.select
  rw [if_neg, hq]
  intro h
  obtain ⟨h1, h2⟩ := IntOp.andi_eq_one.1 h
  by_cases h0 : k = 0
  · subst h0
    revert h2
    decide
  · have hne : BitVec.ofNat 32 k ≠ 0 := fun e => h0 (by rw [← hx, e]; rfl)
    rw [if_neg hne, hm] at h1
    revert h1
    decide

/-- Two numbers below 4, as words, compare equal exactly when they are equal; the bit as a real number. -/
private theorem eqBit_word (a p : Nat) (ha : a < 4) (hp : p < 4) :
    (FloatOps.uitofp (F := Ideal) .f32 (IntOp.cmpi .eq (BitVec.ofNat 32 a) (BitVec.ofNat 32 p)) : EReal)
      = if a = p then 1 else 0 := by
  show (((IntOp.cmpi .eq (BitVec.ofNat 32 a) (BitVec.ofNat 32 p)).toNat : ℝ) : EReal) = _
  unfold IntOp.cmpi
  by_cases h : a = p
  · subst h
    rw [if_pos rfl]
    simp
  · rw [if_neg h]
    have hne : (BitVec.ofNat 32 a == BitVec.ofNat 32 p) = false := by
      rw [beq_eq_false_iff_ne]
      intro e
      have := congrArg BitVec.toNat e
      rw [BitVec.toNat_ofNat, BitVec.toNat_ofNat] at this
      omega
    simp [hne]

/-! ## The four stretches, each read at the one buffer the next stretch takes from it -/

/-- Rounded-down division of every word of a table by one word, as the program spells it: the quotient rounded toward
    zero, less one where the signs differ and the remainder is not zero. -/
private def floorDivTerm (v : IVec S256 32) (c : IVec S_ 32) : IVec S256 32 :=
  let q := Host.divsi v (broadcastInDim S256 ![] bcast_S_S256 c)
  let sgnNe := cmpi .ne (signi v) (broadcastInDim S256 ![] bcast_S_S256 (signi c))
  let r := Host.remsi v (broadcastInDim S256 ![] bcast_S_S256 c)
  let rNe := cmpi .ne r (broadcastInDim S256 ![] bcast_S_S256 (constantI S_ 32 0#32))
  select (andi sgnNe rNe) (subi q (broadcastInDim S256 ![] bcast_S_S256 (constantI S_ 32 1#32))) q

/-- The comparison of every word of a table with 0, 1, 2, 3, as numbers 0 or 1. -/
private def oneHotTerm (v : IVec S256 32) : S256x4.Idx → EReal :=
  uitofp (F := Ideal) .f32 (cmpi .eq
    (broadcastInDim S256x4 ![0, 1] bcast_S256x1_S256x4_0_1 (broadcastInDim S256x1 ![0] bcast_S256_S256x1_0 v))
    (broadcastInDim S256x4 ![0, 1] bcast_S1x4_S256x4_0_1 (iotaInDim S1x4 32 1)))

private theorem run0 (V : Valuation τ sig (Elt Ideal)) :
    (StableHlo.after (hostOps0 (F := Ideal)) V (Proc.devRef .tc main_v0) : IVec S256 32)
      = (Host.sort2 S256 0 comparator_i32_i32_d0 (V (Proc.devRef .tc main_arg3)) (iotaInDim S256 32 0)).2 := by
  simp only [hostOps0]
  after_results
  rfl

private theorem run1_c (V : Valuation τ sig (Elt Ideal)) :
    (StableHlo.after (hostOps0_1 (F := Ideal)) V (Proc.devRef .tc main_c) : IVec S_ 32) = constantI S_ 32 64#32 := by
  simp only [hostOps0_1]
  after_results

private theorem run1_v0 (V : Valuation τ sig (Elt Ideal)) :
    StableHlo.after (hostOps0_1 (F := Ideal)) V (Proc.devRef .tc main_v0) = V (Proc.devRef .tc main_v0) := by
  simp only [hostOps0_1]
  after_results

private theorem run2 (V : Valuation τ sig (Elt Ideal)) :
    (StableHlo.after (hostOps0_2 (F := Ideal)) V (Proc.devRef .tc main_v1) : IVec S256 32)
      = floorDivTerm (V (Proc.devRef .tc main_v0)) (V (Proc.devRef .tc main_c)) := by
  simp only [hostOps0_2]
  after_results
  rfl

private theorem run3 (V : Valuation τ sig (Elt Ideal)) :
    (StableHlo.after (hostOps0_3 (F := Ideal)) V (Proc.devRef .tc main_v2) : S256x4.Idx → EReal)
      = oneHotTerm (V (Proc.devRef .tc main_v1)) := by
  simp only [hostOps0_3]
  after_results
  rfl

/-! ## The two terms read at an index -/

private theorem floorDivTerm_apply (v : IVec S256 32) (j : S256.Idx) (k : Nat) (hk : k < 256)
    (hv : v j = BitVec.ofNat 32 k) : floorDivTerm v (constantI S_ 32 64#32) j = BitVec.ofNat 32 (k / 64) := by
  refine Eq.trans ?_ (floorDiv64_word k hk)
  rw [← hv]
  rfl

private theorem oneHotTerm_apply (v : IVec S256 32) (b : Fin 256) (p : Fin 4) :
    oneHotTerm v (ix2 b p)
      = FloatOps.uitofp (F := Ideal) .f32 (IntOp.cmpi .eq (v (ix1 b)) (BitVec.ofNat 32 p.val)) := by
  unfold oneHotTerm
  show FloatOps.uitofp (F := Ideal) .f32 (IntOp.cmpi .eq
    (broadcastInDim S256x4 ![0, 1] bcast_S256x1_S256x4_0_1 (broadcastInDim S256x1 ![0] bcast_S256_S256x1_0 v) (ix2 b p))
    (broadcastInDim S256x4 ![0, 1] bcast_S1x4_S256x4_0_1 (iotaInDim S1x4 32 1) (ix2 b p))) = _
  rw [broadcastInDim_apply ![0, 1] bcast_S256x1_S256x4_0_1 _ (ix2 b p) (ix2 b (0 : Fin 1))
      (fun a => match a with | ⟨0, _⟩ => rfl | ⟨1, _⟩ => rfl),
    broadcastInDim_apply ![0] bcast_S256_S256x1_0 v (ix2 b (0 : Fin 1)) (ix1 b) (fun a => match a with | ⟨0, _⟩ => rfl),
    broadcastInDim_apply ![0, 1] bcast_S1x4_S256x4_0_1 (iotaInDim S1x4 32 1) (ix2 b p) (ix2 (0 : Fin 1) p)
      (fun a => match a with | ⟨0, _⟩ => rfl | ⟨1, _⟩ => rfl)]
  rfl

/-- The membership table: entry (b, p) is 1 where the sorting permutation sends image b into group p. -/
theorem member_eq (W : Valuation τ sig (Elt Ideal)) (σ : Fin 256 → Fin 256)
    (hσ : ∀ j : S256.Idx, (Host.sort2 S256 0 comparator_i32_i32_d0 (W (Proc.devRef .tc main_arg3)) (iotaInDim S256 32 0)).2 j
      = BitVec.ofNat 32 (σ (j 0)).val)
    (b : Fin 256) (p : Fin 4) :
    before0 W (Proc.devRef .tc main_v2) (ix2 b p) = member σ b p := by
  dsimp only [before0]
  rw [run3, run2, run1_c, run1_v0, run0, oneHotTerm_apply,
    floorDivTerm_apply _ (ix1 b) (σ b).val (σ b).isLt (hσ (ix1 b)),
    eqBit_word _ _ (by have := (σ b).isLt; omega) p.isLt]
  unfold member part
  simp only [Fin.ext_iff]

/-- Those stretches leave the float arguments as they were. -/
theorem before0_arg0 (W : Valuation τ sig (Elt Ideal)) :
    before0 W (Proc.devRef .tc main_arg0) = W (Proc.devRef .tc main_arg0) := by
  dsimp only [before0]
  simp only [hostOps0, hostOps0_1, hostOps0_2, hostOps0_3]
  after_results
theorem before0_arg1 (W : Valuation τ sig (Elt Ideal)) :
    before0 W (Proc.devRef .tc main_arg1) = W (Proc.devRef .tc main_arg1) := by
  dsimp only [before0]
  simp only [hostOps0, hostOps0_1, hostOps0_2, hostOps0_3]
  after_results
theorem before0_arg2 (W : Valuation τ sig (Elt Ideal)) :
    before0 W (Proc.devRef .tc main_arg2) = W (Proc.devRef .tc main_arg2) := by
  dsimp only [before0]
  simp only [hostOps0, hostOps0_1, hostOps0_2, hostOps0_3]
  after_results

end Cert.KernelIdeal.HostValue

end
-- ==== Proof.KernelHost1.lean ====
/-
  The host operations between the two kernel regions, read at the ideal values: the per-image sums are pooled through
  the membership table, each group's mean, variance, scale and shift are formed, and the scales and shifts are spread
  back over the images through the same table.
-/
import proofs.«421362_j51101520888529_1_alg».proof.Proof.Gen.KernelIdeal.Launch
import proofs.«421362_j51101520888529_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.SortFacts
import Idealize.ShloMosaic.PureOps.Ideal.Laws

noncomputable section

open scoped BigOperators

namespace Cert.KernelIdeal.HostValue

open Idealize.ShloMosaic Idealize.ShloMosaic.ValueIdx Idealize.SL.Sem
open Cert.KernelIdeal Cert.KernelIdeal.Gen Cert.ShuffleNorm

/-! ## The two contractions' operand indices, axis by axis

Pooling contracts the table's image axis with the rows' image axis and keeps (group, channel); spreading contracts the
table's group axis with the per-group rows' group axis and keeps (image, channel). -/

section PoolAxes
variable (j : S4x256.Idx) (k : dot_S4x256_S256x256_S4x256_1_0_0_1_n_n.contr.Idx)
private theorem poolL_0 : (dot_S4x256_S256x256_S4x256_1_0_0_1_n_n.lhsIdx j k 0).val = (j 0).val := rfl
private theorem poolL_1 : (dot_S4x256_S256x256_S4x256_1_0_0_1_n_n.lhsIdx j k 1).val = (k ⟨0, by decide⟩).val := rfl
private theorem poolR_0 : (dot_S4x256_S256x256_S4x256_1_0_0_1_n_n.rhsIdx j k 0).val = (k ⟨0, by decide⟩).val := rfl
private theorem poolR_1 : (dot_S4x256_S256x256_S4x256_1_0_0_1_n_n.rhsIdx j k 1).val = (j 1).val := rfl
end PoolAxes

section SpreadAxes
variable (j : S256x256.Idx) (k : dot_S256x4_S4x256_S256x256_1_0_0_1_n_n.contr.Idx)
private theorem spreadL_0 : (dot_S256x4_S4x256_S256x256_1_0_0_1_n_n.lhsIdx j k 0).val = (j 0).val := rfl
private theorem spreadL_1 : (dot_S256x4_S4x256_S256x256_1_0_0_1_n_n.lhsIdx j k 1).val = (k ⟨0, by decide⟩).val := rfl
private theorem spreadR_0 : (dot_S256x4_S4x256_S256x256_1_0_0_1_n_n.rhsIdx j k 0).val = (k ⟨0, by decide⟩).val := rfl
private theorem spreadR_1 : (dot_S256x4_S4x256_S256x256_1_0_0_1_n_n.rhsIdx j k 1).val = (j 1).val := rfl
end SpreadAxes

/-! ## The operations read at an index -/

section Read
variable (M : FVec Ideal S256x4 .f32) (A S Q : FVec Ideal S256x256 .f32) (G g be : FVec Ideal S4x256 .f32)

/-- The transposed table contracted with per-image rows: at group `p` and channel `ch`, the sum over the images of the
    table's entry for the image and the group times the image's row at the channel. -/
private theorem pool_apply (p : Fin 4) (ch : Fin 256) :
    Host.dotGeneral (F := Ideal) dot_S4x256_S256x256_S4x256_1_0_0_1_n_n none
      (transpose S4x256 [1, 0] M transposes_S256x4_S4x256_1_0) A (ix2 p ch)
      = ∑ b : Fin 256, M (ix2 b p) * A (ix2 b ch) := by
  simp only [Host.dotGeneral]
  rw [Ideal.dotGeneral_apply, ← Equiv.sum_comp (contrEquiv1 dot_S4x256_S256x256_S4x256_1_0_0_1_n_n 256 rfl rfl).symm]
  refine Finset.sum_congr rfl (fun b _ => ?_)
  have hk := contrEquiv1_symm_val dot_S4x256_S256x256_S4x256_1_0_0_1_n_n 256 rfl rfl b
  have hl : dot_S4x256_S256x256_S4x256_1_0_0_1_n_n.lhsIdx (ix2 p ch)
      ((contrEquiv1 dot_S4x256_S256x256_S4x256_1_0_0_1_n_n 256 rfl rfl).symm b) = ix2 p b := by
    funext a
    match a with
    | ⟨0, _⟩ => exact Fin.ext (poolL_0 _ _)
    | ⟨1, _⟩ => exact Fin.ext ((poolL_1 _ _).trans hk)
  have hr : dot_S4x256_S256x256_S4x256_1_0_0_1_n_n.rhsIdx (ix2 p ch)
      ((contrEquiv1 dot_S4x256_S256x256_S4x256_1_0_0_1_n_n 256 rfl rfl).symm b) = ix2 b ch := by
    funext a
    match a with
    | ⟨0, _⟩ => exact Fin.ext ((poolR_0 _ _).trans hk)
    | ⟨1, _⟩ => exact Fin.ext (poolR_1 _ _)
  rw [hl, hr, transpose_ix2_apply]

/-- The table contracted with per-group rows: at image `b` and channel `ch`, the sum over the groups of the table's
    entry for the image and the group times the group's row at the channel. -/
private theorem spread_apply (b ch : Fin 256) :
    Host.dotGeneral (F := Ideal) dot_S256x4_S4x256_S256x256_1_0_0_1_n_n none M G (ix2 b ch)
      = ∑ p : Fin 4, M (ix2 b p) * G (ix2 p ch) := by
  simp only [Host.dotGeneral]
  rw [Ideal.dotGeneral_apply, ← Equiv.sum_comp (contrEquiv1 dot_S256x4_S4x256_S256x256_1_0_0_1_n_n 4 rfl rfl).symm]
  refine Finset.sum_congr rfl (fun p _ => ?_)
  have hk := contrEquiv1_symm_val dot_S256x4_S4x256_S256x256_1_0_0_1_n_n 4 rfl rfl p
  have hl : dot_S256x4_S4x256_S256x256_1_0_0_1_n_n.lhsIdx (ix2 b ch)
      ((contrEquiv1 dot_S256x4_S4x256_S256x256_1_0_0_1_n_n 4 rfl rfl).symm p) = ix2 b p := by
    funext a
    match a with
    | ⟨0, _⟩ => exact Fin.ext (spreadL_0 _ _)
    | ⟨1, _⟩ => exact Fin.ext ((spreadL_1 _ _).trans hk)
  have hr : dot_S256x4_S4x256_S256x256_1_0_0_1_n_n.rhsIdx (ix2 b ch)
      ((contrEquiv1 dot_S256x4_S4x256_S256x256_1_0_0_1_n_n 4 rfl rfl).symm p) = ix2 p ch := by
    funext a
    match a with
    | ⟨0, _⟩ => exact Fin.ext ((spreadR_0 _ _).trans hk)
    | ⟨1, _⟩ => exact Fin.ext (spreadR_1 _ _)
  rw [hl, hr]

/-- A pooled row divided by the entry count of a group per channel. -/
private def perGroup : FVec Ideal S4x256 .f32 :=
  Host.divf (Host.dotGeneral (F := Ideal) dot_S4x256_S256x256_S4x256_1_0_0_1_n_n none
      (transpose S4x256 [1, 0] M transposes_S256x4_S4x256_1_0) A)
    (broadcastInDim S4x256 ![] bcast_S_S4x256 (constant (F := Ideal) S_ .f32 0x47800000#32))

/-- The groups' scales: the per-group parameter times the reciprocal root of the second moment less the squared first
    moment, offset. -/
private def scales : FVec Ideal S4x256 .f32 :=
  mulf g (Host.rsqrt (addf (subf (perGroup M Q) (mulf (perGroup M S) (perGroup M S)))
    (broadcastInDim S4x256 ![] bcast_S_S4x256 (constant (F := Ideal) S_ .f32 0x3A83126F#32))))

/-- The groups' shifts: the per-group parameter less the first moment times the scale. -/
private def shifts : FVec Ideal S4x256 .f32 := subf be (mulf (perGroup M S) (scales M S Q g))

private theorem perGroup_apply (p : Fin 4) (ch : Fin 256) :
    perGroup M A (ix2 p ch) = Ideal.div (∑ b : Fin 256, M (ix2 b p) * A (ix2 b ch)) cN :=
  congrArg (Ideal.div · cN) (pool_apply M A p ch)

private theorem scales_apply (p : Fin 4) (ch : Fin 256) :
    scales M S Q g (ix2 p ch)
      = g (ix2 p ch) * Ideal.rsqrt (perGroup M Q (ix2 p ch) - perGroup M S (ix2 p ch) * perGroup M S (ix2 p ch) + cEps) :=
  rfl

private theorem shifts_apply (p : Fin 4) (ch : Fin 256) :
    shifts M S Q g be (ix2 p ch) = be (ix2 p ch) - perGroup M S (ix2 p ch) * scales M S Q g (ix2 p ch) :=
  rfl

end Read

section Between
variable (W : Valuation τ sig (Elt Ideal)) (σ : Fin 256 → Fin 256) (x : Sx.Idx → EReal) (γ β : Sg.Idx → EReal)
  (hM : ∀ (b : Fin 256) (p : Fin 4), W (Proc.devRef .tc main_v2) (ix2 b p) = member σ b p)
  (hS : ∀ b ch : Fin 256, W (Proc.devRef .tc main_v3_0) (ix2 b ch) = kSum x b ch)
  (hQ : ∀ b ch : Fin 256, W (Proc.devRef .tc main_v3_1) (ix2 b ch) = kSumSq x b ch)
  (hγ : W (Proc.devRef .tc main_arg1) = γ) (hβ : W (Proc.devRef .tc main_arg2) = β)
include hM hS hQ hγ hβ

/-- The pooled first moment is the specification's group mean. -/
private theorem perGroup_sum (p : Fin 4) (ch : Fin 256) :
    perGroup (W (Proc.devRef .tc main_v2)) (W (Proc.devRef .tc main_v3_0)) (ix2 p ch) = kMean σ x p ch := by
  rw [perGroup_apply, kMean]
  simp only [hM, hS]

/-- The groups' scales are the specification's. -/
private theorem scales_spec (p : Fin 4) (ch : Fin 256) :
    scales (W (Proc.devRef .tc main_v2)) (W (Proc.devRef .tc main_v3_0)) (W (Proc.devRef .tc main_v3_1))
      (W (Proc.devRef .tc main_arg1)) (ix2 p ch) = kScale σ x γ p ch := by
  rw [scales_apply, perGroup_sum W σ x γ β hM hS hQ hγ hβ, perGroup_apply, hγ, kScale, kVar]
  simp only [hM, hQ]

/-- The groups' shifts are the specification's. -/
private theorem shifts_spec (p : Fin 4) (ch : Fin 256) :
    shifts (W (Proc.devRef .tc main_v2)) (W (Proc.devRef .tc main_v3_0)) (W (Proc.devRef .tc main_v3_1))
      (W (Proc.devRef .tc main_arg1)) (W (Proc.devRef .tc main_arg2)) (ix2 p ch) = kShift σ x γ β p ch := by
  rw [shifts_apply, perGroup_sum W σ x γ β hM hS hQ hγ hβ, scales_spec W σ x γ β hM hS hQ hγ hβ, hβ, kShift]

/-- Each image's scale: its group's, selected through the membership table. -/
theorem scale_eq (b ch : Fin 256) :
    StableHlo.after (hostOps1 (F := Ideal)) W (Proc.devRef .tc main_v20) (ix2 b ch)
      = ∑ p : Fin 4, member σ b p * kScale σ x γ p ch := by
  have e : StableHlo.after (hostOps1 (F := Ideal)) W (Proc.devRef .tc main_v20)
      = Host.dotGeneral (F := Ideal) (φ₁ := .f32) (φ₂ := .f32) dot_S256x4_S4x256_S256x256_1_0_0_1_n_n none
          (W (Proc.devRef .tc main_v2))
          (scales (W (Proc.devRef .tc main_v2)) (W (Proc.devRef .tc main_v3_0)) (W (Proc.devRef .tc main_v3_1))
            (W (Proc.devRef .tc main_arg1))) := by
    after_results_simp
    rfl
  refine (congrFun e (ix2 b ch)).trans ((spread_apply _ _ b ch).trans ?_)
  refine Finset.sum_congr rfl (fun p _ => ?_)
  rw [hM, scales_spec W σ x γ β hM hS hQ hγ hβ]

/-- Each image's shift likewise. -/
theorem shift_eq (b ch : Fin 256) :
    StableHlo.after (hostOps1 (F := Ideal)) W (Proc.devRef .tc main_v21) (ix2 b ch)
      = ∑ p : Fin 4, member σ b p * kShift σ x γ β p ch := by
  have e : StableHlo.after (hostOps1 (F := Ideal)) W (Proc.devRef .tc main_v21)
      = Host.dotGeneral (F := Ideal) (φ₁ := .f32) (φ₂ := .f32) dot_S256x4_S4x256_S256x256_1_0_0_1_n_n none
          (W (Proc.devRef .tc main_v2))
          (shifts (W (Proc.devRef .tc main_v2)) (W (Proc.devRef .tc main_v3_0)) (W (Proc.devRef .tc main_v3_1))
            (W (Proc.devRef .tc main_arg1)) (W (Proc.devRef .tc main_arg2))) := by
    after_results_simp
    rfl
  refine (congrFun e (ix2 b ch)).trans ((spread_apply _ _ b ch).trans ?_)
  refine Finset.sum_congr rfl (fun p _ => ?_)
  rw [hM, shifts_spec W σ x γ β hM hS hQ hγ hβ]

end Between

/-- The operations between the regions leave the batch as it was. -/
theorem between_arg0 (W : Valuation τ sig (Elt Ideal)) :
    StableHlo.after (hostOps1 (F := Ideal)) W (Proc.devRef .tc main_arg0) = W (Proc.devRef .tc main_arg0) := by
  after_results

end Cert.KernelIdeal.HostValue

end
-- ==== Proof.KernelRegion0.lean ====
/-
  What the first kernel region leaves in its two output arrays, as functions of the batch it finds at entry: the
  region walks the batch in 32 blocks of 8 images and stores, per image and channel, the sum of the image's 32 × 32
  pixels and the sum of their squares, so the arrays end holding every image's pixel sum and squared-pixel sum.

  The steps. A sum over the two pixel axes of a block, read at an image and a channel, is the sum over the 32 × 32
  pixels of that image and channel: the indices that drop to (image, channel) are exactly the (image, h, w, channel).
  Block t of the batch is images 8t … 8t + 7, and block t of either output is rows 8t … 8t + 7, so what point t
  stores is block t of the array of per-image sums. Row r lies in block r / 8, so the 32 blocks cover each output.
-/
import proofs.«421362_j51101520888529_1_alg».proof.Proof.Gen.KernelIdeal.Frame
import proofs.«421362_j51101520888529_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Stats

/-! ## A block summed over its pixel axes -/

/-- Dropping the two pixel coordinates of an index of a block leaves its image and channel. -/
theorem drop_ix4 (h : S8x32x32x256.Reduces [1, 2] S8x256) (r : Fin 8) (p q : Fin 32) (ch : Fin 256) :
    h.drop (ix4 r p q ch) = ix2 r ch := by
  funext b
  apply Fin.ext
  match b with
  | ⟨0, _⟩ => exact h.drop_apply_val_of_eq (ix4 r p q ch) ⟨0, by decide⟩ 0
  | ⟨1, _⟩ => exact h.drop_apply_val_of_eq (ix4 r p q ch) ⟨1, by decide⟩ 3

/-- A block's sum over its two pixel axes, read at an image and a channel: the sum over the 32 × 32 pixels. -/
theorem pay_apply (h : S8x32x32x256.Reduces [1, 2] S8x256) (v : FVec Ideal S8x32x32x256 .f32) (r : Fin 8) (ch : Fin 256) :
    multiReduction (F := Ideal) .add [1, 2] S8x256 v 0x00000000#32 h (.inl rfl) rfl (ix2 r ch)
      = ∑ k : Fin 32 × Fin 32, v (ix4 r k.1 k.2 ch) := by
  show ∑ i ∈ Finset.univ.filter (fun i => h.drop i = ix2 r ch), v i = _
  symm
  refine Finset.sum_bij (fun k _ => ix4 r k.1 k.2 ch) ?_ ?_ ?_ ?_
  · intro k _
    rw [Finset.mem_filter]
    exact ⟨Finset.mem_univ _, drop_ix4 h r k.1 k.2 ch⟩
  · intro k _ k' _ e
    exact Prod.ext (congrFun e 1) (congrFun e 2)
  · intro i hi
    rw [Finset.mem_filter] at hi
    have e0 : i 0 = r := by
      have := congrFun hi.2 0
      exact (Fin.ext ((h.drop_apply_val_of_eq i 0 0).symm)).trans this
    have e3 : i 3 = ch := by
      have := congrFun hi.2 1
      exact (Fin.ext ((h.drop_apply_val_of_eq i 1 3).symm)).trans this
    refine ⟨(i 1, i 2), Finset.mem_univ _, ?_⟩
    subst e0 e3
    exact (eq_ix4 i).symm
  · intro k _
    rfl

/-! ## Blocks of the batch and of the outputs -/

/-- The zero offsets of a whole-block access, on two and on four axes. -/
theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The batch as the region finds it, and the two arrays of per-image sums the region is to leave. -/
abbrev batch (c : Dev nD) : S256x32x32x256.Idx → EReal := V c main_arg0
abbrev sumsOf (x : S256x32x32x256.Idx → EReal) : S256x256.Idx → EReal := fun i => Cert.ShuffleNorm.kSum x (i 0) (i 1)
abbrev sumsqOf (x : S256x32x32x256.Idx → EReal) : S256x256.Idx → EReal := fun i => Cert.ShuffleNorm.kSumSq x (i 0) (i 1)

/-- The windows' index maps over the 32 points: along the batch axis every window's block index is the point,
    along every other axis it is 0. -/
theorem block_index : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The batch window's block at point t is images 8t … 8t + 7 of the batch. -/
theorem block_apply (c : Dev nD) (t : Fin cfg0.N) (y : S8x32x32x256.Idx) (i : S256x32x32x256.Idx)
    (h0 : (i 0).val = 8 * t.val + (y 0).val) (h1 : (i 1).val = (y 1).val) (h2 : (i 2).val = (y 2).val)
    (h3 : (i 3).val = (y 3).val) :
    (iblk0 V c 0 t : Vec Ideal S8x32x32x256 .f32) y = batch V c i := by
  obtain ⟨e0, e1, e2, e3, -⟩ := block_index t
  unfold iblk0
  rw [View.read_apply]
  show V c main_arg0 _ = V c main_arg0 _
  congr 1
  funext a
  apply Fin.ext
  match a with
  | ⟨0, _⟩ => show win0_0.index t (0 : Fin 4) * 8 + 1 * (y 0).val = (i 0).val; omega
  | ⟨1, _⟩ => show win0_0.index t (1 : Fin 4) * 32 + 1 * (y 1).val = (i 1).val; omega
  | ⟨2, _⟩ => show win0_0.index t (2 : Fin 4) * 32 + 1 * (y 2).val = (i 2).val; omega
  | ⟨3, _⟩ => show win0_0.index t (3 : Fin 4) * 256 + 1 * (y 3).val = (i 3).val; omega

/-- The first stored value of the body at an index of the output block. -/
theorem pay1_at (x0 : Vec Ideal S8x32x32x256 .f32) (y : S8x256.Idx) :
    k0_pay1 (F := Ideal) x0 y = ∑ k : Fin 32 × Fin 32, x0 (ix4 (y 0) k.1 k.2 (y 1)) := by
  obtain ⟨r, ch, rfl⟩ : ∃ (r : Fin 8) (ch : Fin 256), y = ix2 r ch := ⟨y 0, y 1, eq_ix2 y⟩
  exact pay_apply _ x0 r ch

/-- What point t writes back into the first output array is block t of the pixel sums of the batch. -/
theorem flushed1_eq (c : Dev nD) (t : Fin cfg0.N) :
    (dat0 (F := Ideal) V c).flushed 1 t = ((cfg0.win 1).blk t).view.read (Elt Ideal) (sumsOf (batch V c)) := by
  show (cfg0.win 1).cut (grid0.coords t) ((dat0 V c).after 1 t) = _
  rw [after0_1]
  unfold out0_1
  rw [View.canon_unit_zero zeros2]
  simp only [View.ld_unit_zero (S := S8x32x32x256) zeros4]
  funext j
  obtain ⟨-, -, -, -, e4, e5, -⟩ := block_index t
  show k0_pay1 (F := Ideal) (iblk0 V c 0 t) j = sumsOf (batch V c) (((cfg0.win 1).blk t).view.emb j)
  refine (pay1_at (iblk0 V c 0 t) j).trans ?_
  show _ = ∑ k : Fin 32 × Fin 32, batch V c (ix4 ((((cfg0.win 1).blk t).view.emb j) 0) k.1 k.2 ((((cfg0.win 1).blk t).view.emb j) 1))
  refine Finset.sum_congr rfl fun k _ => ?_
  refine block_apply V c t (ix4 (j 0) k.1 k.2 (j 1)) (ix4 ((((cfg0.win 1).blk t).view.emb j) 0) k.1 k.2 ((((cfg0.win 1).blk t).view.emb j) 1)) ?_ rfl rfl ?_
  · show win0_1.index t (0 : Fin 2) * 8 + 1 * (j 0).val = 8 * t.val + (j 0).val
    omega
  · show win0_1.index t (1 : Fin 2) * 256 + 1 * (j 1).val = (j 1).val
    omega

/-! ## The first output: the pixel sums, block by block and covered -/

/-- An index of the first output array is in point t's block iff each coordinate is in the block's range. -/
theorem mem_block1 (t : Fin cfg0.N) (i : S256x256.Idx) :
    i ∈ ((cfg0.win 1).blk t).view.set ↔ ∀ a : Fin 2, win0_1.index t a * S8x256.size a ≤ (i a).val
      ∧ (i a).val < win0_1.index t a * S8x256.size a + S8x256.size a := by
  show i ∈ ((View.whole main_v3_0).slice (win0_1.rect t)).set ↔ _
  rw [View.set_slice_whole, Rect.mem_set_unit]
  exact Iff.rfl

/-- Every index of the first output array is written back by the point its image's block belongs to. -/
theorem covered1 (i : S256x256.Idx) :
    ∃ t : Fin cfg0.N, (cfg0.win 1).flush t = true ∧ i ∈ ((cfg0.win 1).blk t).view.set := by
  have hi0 : (i 0).val < 256 := (i 0).isLt
  have hi1 : (i 1).val < 256 := (i 1).isLt
  obtain ⟨t, ht⟩ : ∃ t : Fin cfg0.N, t.val = (i 0).val / 8 :=
    ⟨⟨(i 0).val / 8, by rw [show cfg0.N = 32 from N_0]; omega⟩, rfl⟩
  obtain ⟨-, -, -, -, e4, e5, -⟩ := block_index t
  refine ⟨t, flush0_1 t, ?_⟩
  rw [mem_block1]
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 256 ≤ (i 1).val ∧ (i 1).val < win0_1.index t (1 : Fin 2) * 256 + 256
    omega

/-! ## The second output: the squared-pixel sums, block by block and covered -/

/-- The second stored value of the body at an index of the output block: the same sum over the squared block. -/
theorem pay2_at (x0 : Vec Ideal S8x32x32x256 .f32) (y : S8x256.Idx) :
    k0_pay2 (F := Ideal) x0 y
      = ∑ k : Fin 32 × Fin 32, x0 (ix4 (y 0) k.1 k.2 (y 1)) * x0 (ix4 (y 0) k.1 k.2 (y 1)) := by
  obtain ⟨r, ch, rfl⟩ : ∃ (r : Fin 8) (ch : Fin 256), y = ix2 r ch := ⟨y 0, y 1, eq_ix2 y⟩
  exact pay_apply _ (mulf x0 x0) r ch

/-- What point t writes back into the second output array is block t of the squared-pixel sums of the batch. -/
theorem flushed2_eq (c : Dev nD) (t : Fin cfg0.N) :
    (dat0 (F := Ideal) V c).flushed 2 t = ((cfg0.win 2).blk t).view.read (Elt Ideal) (sumsqOf (batch V c)) := by
  show (cfg0.win 2).cut (grid0.coords t) ((dat0 V c).after 2 t) = _
  rw [after0_2]
  unfold out0_2
  rw [View.canon_unit_zero zeros2]
  simp only [View.ld_unit_zero (S := S8x32x32x256) zeros4]
  funext j
  obtain ⟨-, -, -, -, -, -, e6, e7⟩ := block_index t
  show k0_pay2 (F := Ideal) (iblk0 V c 0 t) j = sumsqOf (batch V c) (((cfg0.win 2).blk t).view.emb j)
  refine (pay2_at (iblk0 V c 0 t) j).trans ?_
  show _ = ∑ k : Fin 32 × Fin 32,
      batch V c (ix4 ((((cfg0.win 2).blk t).view.emb j) 0) k.1 k.2 ((((cfg0.win 2).blk t).view.emb j) 1))
        * batch V c (ix4 ((((cfg0.win 2).blk t).view.emb j) 0) k.1 k.2 ((((cfg0.win 2).blk t).view.emb j) 1))
  refine Finset.sum_congr rfl fun k _ => ?_
  have h : (iblk0 V c 0 t : Vec Ideal S8x32x32x256 .f32) (ix4 (j 0) k.1 k.2 (j 1))
      = batch V c (ix4 ((((cfg0.win 2).blk t).view.emb j) 0) k.1 k.2 ((((cfg0.win 2).blk t).view.emb j) 1)) := by
    refine block_apply V c t (ix4 (j 0) k.1 k.2 (j 1)) (ix4 ((((cfg0.win 2).blk t).view.emb j) 0) k.1 k.2 ((((cfg0.win 2).blk t).view.emb j) 1)) ?_ rfl rfl ?_
    · show win0_2.index t (0 : Fin 2) * 8 + 1 * (j 0).val = 8 * t.val + (j 0).val
      omega
    · show win0_2.index t (1 : Fin 2) * 256 + 1 * (j 1).val = (j 1).val
      omega
  exact congrArg₂ (fun a b : EReal => a * b) h h

/-- An index of the second output array is in point t's block iff each coordinate is in the block's range. -/
theorem mem_block2 (t : Fin cfg0.N) (i : S256x256.Idx) :
    i ∈ ((cfg0.win 2).blk t).view.set ↔ ∀ a : Fin 2, win0_2.index t a * S8x256.size a ≤ (i a).val
      ∧ (i a).val < win0_2.index t a * S8x256.size a + S8x256.size a := by
  show i ∈ ((View.whole main_v3_1).slice (win0_2.rect t)).set ↔ _
  rw [View.set_slice_whole, Rect.mem_set_unit]
  exact Iff.rfl

/-- Every index of the second output array is written back by the point its image's block belongs to. -/
theorem covered2 (i : S256x256.Idx) :
    ∃ t : Fin cfg0.N, (cfg0.win 2).flush t = true ∧ i ∈ ((cfg0.win 2).blk t).view.set := by
  have hi0 : (i 0).val < 256 := (i 0).isLt
  have hi1 : (i 1).val < 256 := (i 1).isLt
  obtain ⟨t, ht⟩ : ∃ t : Fin cfg0.N, t.val = (i 0).val / 8 :=
    ⟨⟨(i 0).val / 8, by rw [show cfg0.N = 32 from N_0]; omega⟩, rfl⟩
  obtain ⟨-, -, -, -, -, -, e6, e7⟩ := block_index t
  refine ⟨t, flush0_2 t, ?_⟩
  rw [mem_block2]
  intro a
  match a with
  | ⟨0, _⟩ =>
    show win0_2.index t (0 : Fin 2) * 8 ≤ (i 0).val ∧ (i 0).val < win0_2.index t (0 : Fin 2) * 8 + 8
    omega
  | ⟨1, _⟩ =>
    show win0_2.index t (1 : Fin 2) * 256 ≤ (i 1).val ∧ (i 1).val < win0_2.index t (1 : Fin 2) * 256 + 256
    omega

end Stats

/-! ## What the two arrays end holding -/

/-- The first region's first output: every image's pixel sum per channel. -/
theorem sums_final (c : Dev nD) (b ch : Fin 256) :
    (dat0 (F := Ideal) V c).arrAt 1 cfg0.N (ix2 b ch) = Cert.ShuffleNorm.kSum (V c main_arg0) b ch :=
  congrFun ((dat0 (F := Ideal) V c).arrAt_eq_of_cover 1 (Stats.sumsOf (Stats.batch V c)) (fun t _ => Stats.flushed1_eq V c t) Stats.covered1)
    (ix2 b ch)

/-- The first region's second output: every image's squared-pixel sum per channel. -/
theorem sumsq_final (c : Dev nD) (b ch : Fin 256) :
    (dat0 (F := Ideal) V c).arrAt 2 cfg0.N (ix2 b ch) = Cert.ShuffleNorm.kSumSq (V c main_arg0) b ch :=
  congrFun ((dat0 (F := Ideal) V c).arrAt_eq_of_cover 2 (Stats.sumsqOf (Stats.batch V c)) (fun t _ => Stats.flushed2_eq V c t) Stats.covered2)
    (ix2 b ch)

end Cert.KernelIdeal.Regions

end
-- ==== Proof.KernelRegion1.lean ====
/-
  What the second kernel region leaves in its output array, as a function of the arrays it finds at entry: the region
  walks the batch in 32 blocks of 8 images and stores each pixel times its image's scale plus its image's shift, the
  scales and shifts read from two per-image, per-channel arrays.
-/
import proofs.«421362_j51101520888529_1_alg».proof.Proof.Gen.KernelIdeal.Frame
import proofs.«421362_j51101520888529_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Cert.KernelIdeal Cert.KernelIdeal.Gen

/-- A pixel times its image's scale plus its image's shift. -/
def affineAt (x : Cert.ShuffleNorm.Sx.Idx → EReal) (s t : (⟨2, ![256, 256]⟩ : Shape).Idx → EReal)
    (b : Fin 256) (h w : Fin 32) (ch : Fin 256) : EReal :=
  x (ix4 b h w ch) * s (ix2 b ch) + t (ix2 b ch)

/-! ## The stored value at a pixel of a block -/

/-- A per-image row [8,256], viewed [8,1,1,256] and spread over the 32 × 32 pixels, reads at a pixel of image `r` and
    channel `ch` the row's entry `(r, ch)`. -/
theorem spread_apply {α : Type} (v : S8x256.Idx → α) (r : Fin 8) (h w : Fin 32) (ch : Fin 256) :
    broadcastTo S8x32x32x256
        (shapeCast S8x1x1x256 (shapeCast S8x256 v shapeCasts_S8x256_S8x256) shapeCasts_S8x256_S8x1x1x256)
        broadcasts_S8x1x1x256_S8x32x32x256 (ix4 r h w ch) = v (ix2 r ch) := by
  refine (broadcastTo_apply _ _ (ix4 r h w ch) (ix4 r (0 : Fin 1) (0 : Fin 1) ch) (fun a => ?_)).trans ?_
  · match a with
    | ⟨0, _⟩ => rfl
    | ⟨1, _⟩ => rfl
    | ⟨2, _⟩ => rfl
    | ⟨3, _⟩ => rfl
  refine (shapeCast_apply _ _ (ix4 r (0 : Fin 1) (0 : Fin 1) ch) (ix2 r ch) ?_).trans ?_
  · rw [Shape.rowMajor_val_two, Shape.rowMajor_val_four]
    show r.val * 256 + ch.val = ((r.val * 1 + 0) * 1 + 0) * 256 + ch.val
    omega
  rw [shapeCast_self]

/-- The value a grid point stores at pixel `(h, w)`, channel `ch` of the block's image `r`: the pixel times the image's
    scale plus the image's shift. -/
theorem pay_apply (v0 : S8x32x32x256.Idx → EReal) (v1 v4 : S8x256.Idx → EReal) (r : Fin 8) (h w : Fin 32) (ch : Fin 256) :
    k1_pay1 (F := Ideal) v0 v1 v4 (ix4 r h w ch) = v0 (ix4 r h w ch) * v1 (ix2 r ch) + v4 (ix2 r ch) := by
  unfold k1_pay1
  show v0 (ix4 r h w ch) * _ + _ = _
  rw [spread_apply, spread_apply]

/-- At one pixel `j` of a block sitting at index `i` of the array: if the three loaded blocks hold at `j` what the
    arrays hold at `i` (the batch) and at `i`'s image and channel (the scales, the shifts), the stored value is the
    array's affine value at `i`. -/
theorem point_value (x0 : S8x32x32x256.Idx → EReal) (x1 x2 : S8x256.Idx → EReal)
    (X : S256x32x32x256.Idx → EReal) (Sc Sh : S256x256.Idx → EReal) (j : S8x32x32x256.Idx) (i : S256x32x32x256.Idx)
    (e0 : x0 j = X i) (e1 : x1 (ix2 (j 0) (j 3)) = Sc (ix2 (i 0) (i 3))) (e2 : x2 (ix2 (j 0) (j 3)) = Sh (ix2 (i 0) (i 3))) :
    k1_pay1 (F := Ideal) x0 x1 x2 j = affineAt X Sc Sh (i 0) (i 1) (i 2) (i 3) := by
  obtain ⟨p, q, r, s, rfl⟩ : ∃ (p : Fin 8) (q r : Fin 32) (s : Fin 256), j = ix4 p q r s := ⟨j 0, j 1, j 2, j 3, eq_ix4 j⟩
  obtain ⟨b, h, w, ch, rfl⟩ : ∃ (b : Fin 256) (h w : Fin 32) (ch : Fin 256), i = ix4 b h w ch := ⟨i 0, i 1, i 2, i 3, eq_ix4 i⟩
  have e1' : x1 (ix2 p s) = Sc (ix2 b ch) := e1
  have e2' : x2 (ix2 p s) = Sh (ix2 b ch) := e2
  rw [pay_apply, e0, e1', e2']
  rfl

/-! ## Where the blocks sit -/

/-- The four windows' index maps over the 32 grid points: every window's block index along the batch axis is the
    point's number, and 0 along every other axis. -/
theorem block_index : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

theorem zero_offsets_pixels : (![0, 0, 0, 0] : Fin 4 → Nat) = fun _ => 0 := funext fun a => by fin_cases a <;> rfl
theorem zero_offsets_rows : (![0, 0] : Fin 2 → Nat) = fun _ => 0 := funext fun a => by fin_cases a <;> rfl

/-- An index of the output array lies in point `t`'s block iff each coordinate lies in the block's range on its axis. -/
theorem mem_blk (t : Fin cfg1.N) (i : S256x32x32x256.Idx) :
    i ∈ ((cfg1.win 3).blk t).view.set ↔ ∀ a : Fin 4, win1_3.index t a * S8x32x32x256.size a ≤ (i a).val ∧ (i a).val < win1_3.index t a * S8x32x32x256.size a + S8x32x32x256.size a := by
  show i ∈ ((View.whole main_v22).slice (win1_3.rect t)).set ↔ _
  rw [View.set_slice_whole, Rect.mem_set_unit]
  exact Iff.rfl

/-- Every index of the output array lies in some point's block: image `r` is in block `r / 8`. -/
theorem covered (i : S256x32x32x256.Idx) :
    ∃ t : Fin cfg1.N, (cfg1.win 3).flush t = true ∧ i ∈ ((cfg1.win 3).blk t).view.set := by
  have hN : cfg1.N = 32 := N_1
  have hi0 : (i 0).val < 256 := (i 0).isLt
  have hi1 : (i 1).val < 32 := (i 1).isLt
  have hi2 : (i 2).val < 32 := (i 2).isLt
  have hi3 : (i 3).val < 256 := (i 3).isLt
  refine ⟨⟨(i 0).val / 8, by rw [hN]; omega⟩, flush1_3 _, ?_⟩
  obtain ⟨-, -, -, -, -, -, -, -, d0, d1, d2, d3⟩ := block_index ⟨(i 0).val / 8, by rw [hN]; omega⟩
  rw [mem_blk]
  intro a
  match a with
  | ⟨0, _⟩ => show win1_3.index _ (0 : Fin 4) * 8 ≤ (i 0).val ∧ (i 0).val < win1_3.index _ (0 : Fin 4) * 8 + 8; rw [d0]; show (i 0).val / 8 * 8 ≤ (i 0).val ∧ (i 0).val < (i 0).val / 8 * 8 + 8; omega
  | ⟨1, _⟩ => show win1_3.index _ (1 : Fin 4) * 32 ≤ (i 1).val ∧ (i 1).val < win1_3.index _ (1 : Fin 4) * 32 + 32; rw [d1]; omega
  | ⟨2, _⟩ => show win1_3.index _ (2 : Fin 4) * 32 ≤ (i 2).val ∧ (i 2).val < win1_3.index _ (2 : Fin 4) * 32 + 32; rw [d2]; omega
  | ⟨3, _⟩ => show win1_3.index _ (3 : Fin 4) * 256 ≤ (i 3).val ∧ (i 3).val < win1_3.index _ (3 : Fin 4) * 256 + 256; rw [d3]; omega

variable (V : (c : Dev nD) → (b : Ref sig .tc) → Buf (Elt Ideal) ((c : Thread nD τ).loc b))

/-! ## From the blocks to the array -/

/-- The whole array the region's blocks are restrictions of: the affine value at every index. -/
def affineArr (c : Dev nD) : S256x32x32x256.Idx → EReal :=
  fun i => affineAt (V c main_arg0) (V c main_v20) (V c main_v21) (i 0) (i 1) (i 2) (i 3)

/-- What grid point `t` writes back is block `t` of the whole affine array. -/
theorem flushed_eq (c : Dev nD) (t : Fin cfg1.N) :
    (dat1 (F := Ideal) V c).flushed 3 t = ((cfg1.win 3).blk t).view.read (Elt Ideal) (affineArr V c) := by
  show (cfg1.win 3).cut (grid1.coords t) ((dat1 V c).after 3 t) = _
  rw [after1_3]
  unfold out1_3
  rw [View.canon_unit_zero zero_offsets_pixels]
  simp only [View.ld_unit_zero (S := S8x32x32x256) zero_offsets_pixels, View.ld_unit_zero (S := S8x256) zero_offsets_rows]
  obtain ⟨a0, a1, a2, a3, b0, b1, c0, c1, d0, d1, d2, d3⟩ := block_index t
  funext j
  show k1_pay1 (F := Ideal) (iblk1 V c 0 t) (iblk1 V c 1 t) (iblk1 V c 2 t) j = affineArr V c (((cfg1.win 3).blk t).view.emb j)
  unfold affineArr
  refine point_value (iblk1 V c 0 t) (iblk1 V c 1 t) (iblk1 V c 2 t) (V c main_arg0) (V c main_v20) (V c main_v21) j (((cfg1.win 3).blk t).view.emb j) ?_ ?_ ?_
  · show V c main_arg0 (((cfg1.win 0).blk t).view.emb j) = V c main_arg0 (((cfg1.win 3).blk t).view.emb j)
    refine congrArg (V c main_arg0) (funext fun a => Fin.ext ?_)
    match a with
    | ⟨0, _⟩ => show win1_0.index t (0 : Fin 4) * 8 + 1 * (j 0).val = win1_3.index t (0 : Fin 4) * 8 + 1 * (j 0).val; rw [a0, d0]
    | ⟨1, _⟩ => show win1_0.index t (1 : Fin 4) * 32 + 1 * (j 1).val = win1_3.index t (1 : Fin 4) * 32 + 1 * (j 1).val; rw [a1, d1]
    | ⟨2, _⟩ => show win1_0.index t (2 : Fin 4) * 32 + 1 * (j 2).val = win1_3.index t (2 : Fin 4) * 32 + 1 * (j 2).val; rw [a2, d2]
    | ⟨3, _⟩ => show win1_0.index t (3 : Fin 4) * 256 + 1 * (j 3).val = win1_3.index t (3 : Fin 4) * 256 + 1 * (j 3).val; rw [a3, d3]
  · show V c main_v20 (((cfg1.win 1).blk t).view.emb (ix2 (j 0) (j 3))) = V c main_v20 (ix2 (((cfg1.win 3).blk t).view.emb j 0) (((cfg1.win 3).blk t).view.emb j 3))
    refine congrArg (V c main_v20) (funext fun a => Fin.ext ?_)
    match a with
    | ⟨0, _⟩ => show win1_1.index t (0 : Fin 2) * 8 + 1 * (j 0).val = win1_3.index t (0 : Fin 4) * 8 + 1 * (j 0).val; rw [b0, d0]
    | ⟨1, _⟩ => show win1_1.index t (1 : Fin 2) * 256 + 1 * (j 3).val = win1_3.index t (3 : Fin 4) * 256 + 1 * (j 3).val; rw [b1, d3]
  · show V c main_v21 (((cfg1.win 2).blk t).view.emb (ix2 (j 0) (j 3))) = V c main_v21 (ix2 (((cfg1.win 3).blk t).view.emb j 0) (((cfg1.win 3).blk t).view.emb j 3))
    refine congrArg (V c main_v21) (funext fun a => Fin.ext ?_)
    match a with
    | ⟨0, _⟩ => show win1_2.index t (0 : Fin 2) * 8 + 1 * (j 0).val = win1_3.index t (0 : Fin 4) * 8 + 1 * (j 0).val; rw [c0, d0]
    | ⟨1, _⟩ => show win1_2.index t (1 : Fin 2) * 256 + 1 * (j 3).val = win1_3.index t (3 : Fin 4) * 256 + 1 * (j 3).val; rw [c1, d3]

/-- The output array after all 32 points is the whole affine array: every point writes its block of it, and the blocks
    cover the array. -/
theorem arr_final (c : Dev nD) : (dat1 (F := Ideal) V c).arrAt 3 cfg1.N = affineArr V c :=
  (dat1 (F := Ideal) V c).arrAt_eq_of_cover 3 (affineArr V c) (fun t _ => flushed_eq V c t) covered

/-- The second region's output: each pixel times its image's scale plus its image's shift. -/
theorem out_final (c : Dev nD) (b : Fin 256) (h w : Fin 32) (ch : Fin 256) :
    (dat1 (F := Ideal) V c).arrAt 3 cfg1.N (ix4 b h w ch)
      = affineAt (V c main_arg0) (V c main_v20) (V c main_v21) b h w ch := by
  rw [arr_final]
  rfl

end Cert.KernelIdeal.Regions

end
-- ==== Proof.KernelValue.lean ====
/-
  The kernel program's result read at one element: entry (b, h, w, c) of its result array is the second formula of
  the specification — the pixel times its group's scale plus its group's shift, the group selected through the
  membership table — once the index table's sorting permutation is known as a function (σ).

  The result array is what the second region leaves; the second region finds the batch as launched and the per-image
  scales and shifts the host operations between the regions computed from the membership table and from the per-image
  sums the first region left.
-/
import proofs.«421362_j51101520888529_1_alg».proof.Proof.Gen.KernelIdeal.Frame
import proofs.«421362_j51101520888529_1_alg».proof.Proof.KernelHost0
import proofs.«421362_j51101520888529_1_alg».proof.Proof.KernelHost1
import proofs.«421362_j51101520888529_1_alg».proof.Proof.KernelRegion0
import proofs.«421362_j51101520888529_1_alg».proof.Proof.KernelRegion1
import proofs.«421362_j51101520888529_1_alg».proof.Proof.Spec

set_option maxRecDepth 16384

noncomputable section

open scoped BigOperators

namespace Cert.KernelIdeal.KernelValue

open Idealize.ShloMosaic Idealize.ShloMosaic.TcCoe Idealize.ShloMosaic.ValueIdx Idealize.SL.Sem
open Cert.KernelIdeal Cert.KernelIdeal.Gen Cert.KernelIdeal.HostValue Cert.KernelIdeal.Regions Cert.ShuffleNorm

variable (m : (ℓ : Loc nD τ sig) → Buf (Elt Ideal) ℓ) (ρ : Dev nD → PrngReg)

/-! ## The buffers the regions and the host operations in between start from -/

/-- At the first region's entry the float arguments are as launched. -/
theorem W4_arg0 (c : Dev nD) : W4 m ρ c (Proc.devRef .tc main_arg0) = m ((c : Thread nD τ).loc main_arg0) :=
  before0_arg0 (W0 m ρ c)
theorem W4_arg1 (c : Dev nD) : W4 m ρ c (Proc.devRef .tc main_arg1) = m ((c : Thread nD τ).loc main_arg1) :=
  before0_arg1 (W0 m ρ c)
theorem W4_arg2 (c : Dev nD) : W4 m ρ c (Proc.devRef .tc main_arg2) = m ((c : Thread nD τ).loc main_arg2) :=
  before0_arg2 (W0 m ρ c)

/-- The first region reads the batch and leaves it; the other float arguments and the membership table it does not
    touch. -/
theorem W5_arg0 (c : Dev nD) : W5 m ρ c (Proc.devRef .tc main_arg0) = m ((c : Thread nD τ).loc main_arg0) :=
  ((W5_arr m ρ c 0).trans (((dat0 (V4 m ρ) c).arrAt_in 0 rfl _).trans (A_eq0 (V4 m ρ) c 0))).trans (W4_arg0 m ρ c)
theorem W5_arg1 (c : Dev nD) : W5 m ρ c (Proc.devRef .tc main_arg1) = m ((c : Thread nD τ).loc main_arg1) :=
  (W5_of_ne m ρ c main_arg1 (by decide)).trans (W4_arg1 m ρ c)
theorem W5_arg2 (c : Dev nD) : W5 m ρ c (Proc.devRef .tc main_arg2) = m ((c : Thread nD τ).loc main_arg2) :=
  (W5_of_ne m ρ c main_arg2 (by decide)).trans (W4_arg2 m ρ c)

/-! ## The result -/

/-- The affine form with its scale and shift entries replaced by equal ones. -/
theorem affineAt_of (x : Sx.Idx → EReal) (s t : (⟨2, ![256, 256]⟩ : Shape).Idx → EReal) (s' t' : EReal)
    (b : Fin 256) (h w : Fin 32) (ch : Fin 256) (hs : s (ix2 b ch) = s') (ht : t (ix2 b ch) = t') :
    affineAt x s t b h w ch = x (ix4 b h w ch) * s' + t' := by
  unfold affineAt
  rw [hs, ht]

theorem kernel_value (c : Dev nD) (σ : Fin 256 → Fin 256)
    (hσ : ∀ j : S256.Idx, (Host.sort2 S256 0 comparator_i32_i32_d0 (m ((c : Thread nD τ).loc main_arg3))
      (iotaInDim S256 32 0)).2 j = BitVec.ofNat 32 (σ (j 0)).val)
    (b : Fin 256) (h w : Fin 32) (ch : Fin 256) :
    W7 m ρ c (Proc.devRef .tc main_v22) (ix4 b h w ch)
      = kerAt σ (m ((c : Thread nD τ).loc main_arg0)) (m ((c : Thread nD τ).loc main_arg1))
          (m ((c : Thread nD τ).loc main_arg2)) b h w ch := by
  -- the membership table, as the first stretches leave it and the first region keeps it
  have hM : ∀ (b : Fin 256) (p : Fin 4), W5 m ρ c (Proc.devRef .tc main_v2) (ix2 b p) = member σ b p := fun b p =>
    (congrFun (W5_of_ne m ρ c main_v2 (by decide)) (ix2 b p)).trans (member_eq (W0 m ρ c) σ hσ b p)
  -- the per-image sums the first region leaves, over the batch as launched
  have hx4 : V4 m ρ c main_arg0 = m ((c : Thread nD τ).loc main_arg0) := W4_arg0 m ρ c
  have hS : ∀ b ch : Fin 256, W5 m ρ c (Proc.devRef .tc main_v3_0) (ix2 b ch)
      = kSum (m ((c : Thread nD τ).loc main_arg0)) b ch := fun b ch =>
    (congrFun (W5_arr m ρ c 1) (ix2 b ch)).trans ((sums_final (V4 m ρ) c b ch).trans (by rw [hx4]))
  have hQ : ∀ b ch : Fin 256, W5 m ρ c (Proc.devRef .tc main_v3_1) (ix2 b ch)
      = kSumSq (m ((c : Thread nD τ).loc main_arg0)) b ch := fun b ch =>
    (congrFun (W5_arr m ρ c 2) (ix2 b ch)).trans ((sumsq_final (V4 m ρ) c b ch).trans (by rw [hx4]))
  -- the per-image scales and shifts the operations between the regions make of them
  have h20 := scale_eq (W5 m ρ c) σ (m ((c : Thread nD τ).loc main_arg0)) (m ((c : Thread nD τ).loc main_arg1))
    (m ((c : Thread nD τ).loc main_arg2)) hM hS hQ (W5_arg1 m ρ c) (W5_arg2 m ρ c) b ch
  have h21 := shift_eq (W5 m ρ c) σ (m ((c : Thread nD τ).loc main_arg0)) (m ((c : Thread nD τ).loc main_arg1))
    (m ((c : Thread nD τ).loc main_arg2)) hM hS hQ (W5_arg1 m ρ c) (W5_arg2 m ρ c) b ch
  have hx6 : V6 m ρ c main_arg0 = m ((c : Thread nD τ).loc main_arg0) :=
    (between_arg0 (W5 m ρ c)).trans (W5_arg0 m ρ c)
  -- the second region's output over those
  refine (congrFun (W7_arr m ρ c 3) (ix4 b h w ch)).trans ((out_final (V6 m ρ) c b h w ch).trans ?_)
  rw [hx6]
  exact affineAt_of _ _ _ _ _ b h w ch h20 h21

end Cert.KernelIdeal.KernelValue

end
-- ==== Proof.lean ====
/-
  A batch normalisation over four groups of a shuffled batch, computed two ways.

  The reference gathers the 256 images at an index table, cuts the gathered batch into four runs of 64, normalises
  each run by its own mean and mean squared deviation per channel, and gathers the result back through the table's
  sorting permutation. The kernel never moves an image: its first region sums each image's pixels and squared pixels,
  host operations pool those sums over each group through a 0/1 membership table made from the sorting permutation
  and turn the pooled moments into a scale and a shift per group, and its second region applies to each image its own
  group's scale and shift.

  The precondition says that every float input is finite and that the index table sorts to 0, 1, …, 255. Then the
  table is a permutation, its sorting permutation is its inverse, gathering and gathering back cancel on the images,
  pooling by membership is summing over a run, and the two results are one function of the inputs, element by element
  on the extended reals. The three programs run, fault nowhere and leave their arguments alone: the kernel programs by
  the generated frames, the reference by its run written out by hand. The kernel's idealisation rewrote nothing.
-/
import proofs.«421362_j51101520888529_1_alg».proof.Defs
import proofs.«421362_j51101520888529_1_alg».proof.Proof.Gen.Kernel
import proofs.«421362_j51101520888529_1_alg».proof.Proof.Gen.Kernel.Skeleton
import proofs.«421362_j51101520888529_1_alg».proof.Proof.Gen.Kernel.Launch
import proofs.«421362_j51101520888529_1_alg».proof.Proof.Gen.Kernel.Points
import proofs.«421362_j51101520888529_1_alg».proof.Proof.Gen.Kernel.Frame
import proofs.«421362_j51101520888529_1_alg».proof.Proof.Gen.KernelIdeal
import proofs.«421362_j51101520888529_1_alg».proof.Proof.Gen.KernelIdeal.Skeleton
import proofs.«421362_j51101520888529_1_alg».proof.Proof.Gen.KernelIdeal.Launch
import proofs.«421362_j51101520888529_1_alg».proof.Proof.Gen.KernelIdeal.Points
import proofs.«421362_j51101520888529_1_alg».proof.Proof.Gen.KernelIdeal.Frame
import proofs.«421362_j51101520888529_1_alg».proof.Proof.Gen.ReferenceIdeal
import proofs.«421362_j51101520888529_1_alg».proof.Proof.Gen.Pre_finite_inputs
import proofs.«421362_j51101520888529_1_alg».proof.Proof.SpecLaws
import proofs.«421362_j51101520888529_1_alg».proof.Proof.Perm
import proofs.«421362_j51101520888529_1_alg».proof.Proof.PreFacts
import proofs.«421362_j51101520888529_1_alg».proof.Proof.RefRun
import proofs.«421362_j51101520888529_1_alg».proof.Proof.RefValue
import proofs.«421362_j51101520888529_1_alg».proof.Proof.KernelRun
import proofs.«421362_j51101520888529_1_alg».proof.Proof.KernelValue
import Idealize.ShloMosaic.Adequacy
import Idealize.ShloMosaic.Init

noncomputable section

namespace Cert.Proof

open Idealize.ShloMosaic Idealize.ShloMosaic.ValueIdx Idealize.SL.Sem

/-! ## The three programs run and keep their arguments -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-! ## The idealisation rewrote nothing -/

theorem preserves : Cert.preserves_Kernel_KernelIdeal := trivial

/-! ## The two results are equal -/

/-- From memories that agree on the arguments both idealised programs end with the same result array: read at an
    element, the reference's is the normalised shuffled batch at the image's position, the kernel's the image scaled
    and shifted by its group's pair, and on finite inputs with a permutation for an index table these agree. -/
theorem algebraic : Cert.algebraic_KernelIdeal_ReferenceIdeal := by
  intro m ρ m' ρ' hpre hagree
  refine ⟨fun c => Cert.KernelIdeal.Gen.W7 m ρ c (Proc.devRef .tc Cert.KernelIdeal.main_v22),
    Cert.KernelIdeal.Gen.run_value (F := Ideal) m ρ, ?_⟩
  refine (θ_run Cert.ReferenceIdeal.defs _ _).mono (fun r h c => ⟨(h c).1.trans ?_, (h c).2⟩)
    (Cert.ReferenceIdeal.RefRun.run (F := Ideal) m' ρ')
  obtain ⟨e0, e1, e2, e3⟩ := hagree c
  rw [e0, e1, e2, e3]
  obtain ⟨hx, hγ, hβ, hs⟩ := Cert.ShuffleNorm.pre_decode _ _ _ _ (hpre c)
  funext i
  rw [eq_ix4 i]
  refine (Cert.ReferenceIdeal.RefValue.refTerm_apply _ _ _ _ (Cert.ShuffleNorm.sortPerm _) (Cert.ShuffleNorm.entry _)
    (fun k => Cert.ShuffleNorm.entry_spec _ hs k) (fun j => Cert.ShuffleNorm.argsort_eq _ j) _ _ _ _).trans ?_
  refine ((Cert.ShuffleNorm.kerAt_eq_refAt _ _ _ _ _ (Cert.ShuffleNorm.sortPerm_bijective _)
    (fun k => Cert.ShuffleNorm.entry_sortPerm _ hs k) hx hγ hβ _ _ _ _).symm).trans ?_
  exact (Cert.KernelIdeal.KernelValue.kernel_value m ρ c (Cert.ShuffleNorm.sortPerm _)
    (fun j => Cert.ShuffleNorm.argsort_eq _ j) _ _ _ _).symm

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
